-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S128x40 .f32) (main_arg9 : FVec F S128x40 .f32) (main_arg10 : FVec F S40 .f32) (main_v33 : IVec S_ 1) : IVec S_ 1 :=
  let main_v34 : FVec F S128x40 .f32 := Host.absf main_arg8
  let main_cst_12 : FVec F S_ .f32 := constant S_ .f32 0x7F800000#32
  let main_v35 : FVec F S128x40 .f32 := broadcastInDim S128x40 ![] bcast_S_S128x40 main_cst_12
  let main_v36 : IVec S128x40 1 := cmpf .olt main_v34 main_v35
  let main_c_13 : IVec S_ 1 := constantI S_ 1 1#1
  let main_v37 : IVec S_ 1 := (fun x v => Host.reduce IntOp.andi x v reducesTo_S128x40_S_d0_1 h_S_) main_v36 main_c_13
  let main_v38 : IVec S_ 1 := andi main_v33 main_v37
  let main_v39 : FVec F S128x40 .f32 := Host.absf main_arg9
  let main_cst_14 : FVec F S_ .f32 := constant S_ .f32 0x7F800000#32
  let main_v40 : FVec F S128x40 .f32 := broadcastInDim S128x40 ![] bcast_S_S128x40 main_cst_14
  let main_v41 : IVec S128x40 1 := cmpf .olt main_v39 main_v40
  let main_c_15 : IVec S_ 1 := constantI S_ 1 1#1
  let main_v42 : IVec S_ 1 := (fun x v => Host.reduce IntOp.andi x v reducesTo_S128x40_S_d0_1 h_S_) main_v41 main_c_15
  let main_v43 : IVec S_ 1 := andi main_v38 main_v42
  let main_v44 : FVec F S40 .f32 := Host.absf main_arg10
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  main_v48

def fn_part1 {F : FTy → Type} [FloatOps F] (main_arg5 : FVec F S128x128 .f32) (main_arg6 : FVec F S128x128 .f32) (main_arg7 : FVec F S128 .f32) (main_arg8 : FVec F S128x40 .f32) (main_arg9 : FVec F S128x40 .f32) (main_arg10 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x40 .f32) (main_arg9 : FVec F S128x40 .f32) (main_arg10 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S5000x128 : Shape := ⟨2, ![5000, 128]⟩
abbrev S5000x1 : Shape := ⟨2, ![5000, 1]⟩
abbrev S1x128 : Shape := ⟨2, ![1, 128]⟩
abbrev S100000x40 : Shape := ⟨2, ![100000, 40]⟩
abbrev S5000x40 : Shape := ⟨2, ![5000, 40]⟩
abbrev S1x40 : Shape := ⟨2, ![1, 40]⟩
abbrev S5000 : Shape := ⟨1, ![5000]⟩

abbrev nBuf : Space → Nat
  | .hbm => 70
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x40, .f32⟩
  | .hbm, ⟨9, _⟩ => ⟨S128x40, .f32⟩
  | .hbm, ⟨10, _⟩ => ⟨S40, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S128x128, .f32⟩
  | .local _ .vmem, ⟨19, _⟩ => ⟨S128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x1, .f32⟩
  | .local _ .vmem, ⟨27, _⟩ => ⟨S5000x1, .f32⟩
  | .local _ .vmem, ⟨28, _⟩ => ⟨S128x40, .f32⟩
  | .local _ .vmem, ⟨29, _⟩ => ⟨S128x40, .f32⟩
  | .local _ .vmem, ⟨30, _⟩ => ⟨S40, .f32⟩
  | .local _ .vmem, ⟨31, _⟩ => ⟨S5000x40, .f32⟩
  | .local _ .vmem, ⟨32, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_c_9 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_10 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S40 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x40 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S40_S40_0 : ∀ a, (![0] : Fin 1 → Nat) a + S40.size a ≤ S40.size a
  h_S40 : 0 < S40.numel
  shapeCasts_S40_S1x40 : S40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x40.size a ≤ S128x40.size a
  hwx2_3 : ∀ i : grid2.Coords, EltTy.bits .f32 = 32 ∨ (Rect.block (s := S128x40) S128x40.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x40.size a ≤ S128x40.size a
  hwx2_4 : ∀ i : grid2.Coords, EltTy.bits .f32 = 32 ∨ (Rect.block (s := S128x40) S128x40.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S40.size a ≤ S40.size a
  hwx2_5 : ∀ i : grid2.Coords, EltTy.bits .f32 = 32 ∨ (Rect.block (s := S40) S40.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x40.size a ≤ S100000x40.size a
  hwx2_6 : ∀ i : grid2.Coords, EltTy.bits .f32 = 32 ∨ (Rect.block (s := S100000x40) S5000x40.size (cc2_transform_6 i) (hinb2_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S128x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S40.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v45) S5000x40.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x40 : Shape := ⟨2, ![100000, 40]⟩
abbrev S1x40 : Shape := ⟨2, ![1, 40]⟩

abbrev nBuf : Space → Nat
  | .hbm => 112
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x40, .f32⟩
  | .hbm, ⟨9, _⟩ => ⟨S128x40, .f32⟩
  | .hbm, ⟨10, _⟩ => ⟨S40, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S100000x128, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S_, .f32⟩
  | .hbm, ⟨74, _⟩ => ⟨S100000x128, .f32⟩
  | .hbm, ⟨75, _⟩ => ⟨S100000x128, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000x128, .f32⟩
  | .hbm, ⟨85, _⟩ => ⟨S_, .f32⟩
  | .hbm, ⟨86, _⟩ => ⟨S100000x128, .f32⟩
  | .hbm, ⟨87, _⟩ => ⟨S1600000x1, .i32⟩
  | .hbm, ⟨88, _⟩ => ⟨S100000x128, .f32⟩
  | .hbm, ⟨89, _⟩ => ⟨S100000x128, .f32⟩
  | .hbm, ⟨90, _⟩ => ⟨S100000x128, .f32⟩
  | .hbm, ⟨91, _⟩ => ⟨S100000x40, .f32⟩
  | .hbm, ⟨92, _⟩ => ⟨S1x40, .f32⟩
  | .hbm, ⟨93, _⟩ => ⟨S100000x40, .f32⟩
  | .hbm, ⟨94, _⟩ => ⟨S100000x40, .f32⟩
  | .hbm, ⟨95, _⟩ => ⟨S100000x40, .f32⟩
  | .hbm, ⟨96, _⟩ => ⟨S100000x40, .f32⟩
  | .hbm, ⟨97, _⟩ => ⟨S_, .f32⟩
  | .hbm, ⟨98, _⟩ => ⟨S100000, .f32⟩
  | .hbm, ⟨99, _⟩ => ⟨S_, .f32⟩
  | .hbm, ⟨100, _⟩ => ⟨S100000, .f32⟩
  | .hbm, ⟨101, _⟩ => ⟨S100000, .f32⟩
  | .hbm, ⟨102, _⟩ => ⟨S100000x1, .f32⟩
  | .hbm, ⟨103, _⟩ => ⟨S100000x40, .f32⟩
  | .hbm, ⟨104, _⟩ => ⟨S100000x40, .f32⟩
  | .hbm, ⟨105, _⟩ => ⟨S100000x40, .f32⟩
  | .hbm, ⟨106, _⟩ => ⟨S_, .f32⟩
  | .hbm, ⟨107, _⟩ => ⟨S100000, .f32⟩
  | .hbm, ⟨108, _⟩ => ⟨S100000x1, .f32⟩
  | .hbm, ⟨109, _⟩ => ⟨S100000x1, .f32⟩
  | .hbm, ⟨110, _⟩ => ⟨S100000x40, .f32⟩
  | .hbm, ⟨111, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call0_cst : Ref sig .tc := ⟨.hbm, 49, rfl⟩
abbrev main_call0_v0 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call1_cst : Ref sig .tc := ⟨.hbm, 73, rfl⟩
abbrev main_call1_v0 : Ref sig .tc := ⟨.hbm, 74, rfl⟩
abbrev main_v50 : Ref sig .tc := ⟨.hbm, 75, rfl⟩
abbrev main_c_8 : Ref sig .tc := ⟨.hbm, 76, rfl⟩
abbrev main_v51 : Ref sig .tc := ⟨.hbm, 77, rfl⟩
abbrev main_v52 : Ref sig .tc := ⟨.hbm, 78, rfl⟩
abbrev main_c_9 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_10 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_call2_cst : Ref sig .tc := ⟨.hbm, 97, rfl⟩
abbrev main_call2_v0 : Ref sig .tc := ⟨.hbm, 98, rfl⟩
abbrev main_call2_cst_0 : Ref sig .tc := ⟨.hbm, 99, rfl⟩
abbrev main_call2_v1 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_call2_v5 : Ref sig .tc := ⟨.hbm, 104, rfl⟩
abbrev main_call2_v6 : Ref sig .tc := ⟨.hbm, 105, rfl⟩
abbrev main_call2_cst_1 : Ref sig .tc := ⟨.hbm, 106, rfl⟩
abbrev main_call2_v7 : Ref sig .tc := ⟨.hbm, 107, rfl⟩
abbrev main_call2_v8 : Ref sig .tc := ⟨.hbm, 108, rfl⟩
abbrev main_call2_v9 : Ref sig .tc := ⟨.hbm, 109, rfl⟩
abbrev main_call2_v10 : Ref sig .tc := ⟨.hbm, 110, rfl⟩
abbrev main_v69 : Ref sig .tc := ⟨.hbm, 111, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000x1_S100000x40_0_1 : S100000x1.BroadcastsInDim S100000x40 (![0, 1] : Fin 2 → Fin S100000x40.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.Glue.lean ====
/-
  What the host operations of the kernel's program hand to each pallas_call.

  From the edge list e (two rows of node ids) the program takes the source ids (row 0) and the destination ids
  (row 1).  The NEIGHBOUR SUM of a feature array h gathers the row of h at every edge's source (a negative id counted
  from the end) and adds it into the row of the edge's destination, starting from zeros.  The INVERSE DEGREE is
  1 / max (number of edges arriving at the node, 1), one column.  Every layer's kernel is launched on the neighbour
  sum of the previous layer's output, that output itself, the inverse degree, and the layer's two weight matrices
  and bias; nothing else of what a kernel reads changes between the launches.
-/
import proofs.«141394_j36197984370866_1_alg».proof.Proof.Gen.KernelIdeal.Frame
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.StableHlo
open Idealize.ShloMosaic.Pipeline (Dat)

namespace Cert.KernelIdeal.Glue

open Cert.KernelIdeal Cert.KernelIdeal.Gen

variable {F : FTy → Type} [FloatOps F]

/-- Row 0 of the edge list: the source ids. -/
def srcIds (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- Row 1 of the edge list: the destination ids. -/
def dstIds (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The neighbour sum of `h` along edges `s → d`. -/
def aggOf (s d : (⟨S1600000, .i32⟩ : BufTy).Contents (Elt F)) (h : (⟨S100000x128, .f32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 d)
    (Host.gather gather_S100000x128_S1600000x1_S1600000x128_1_0_n_n_0_1_1128 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- 1 / max (in-degree, 1), as a vector over the nodes. -/
def invDegVec (d : (⟨S1600000, .i32⟩ : BufTy).Contents (Elt F)) : (⟨S100000, .f32⟩ : BufTy).Contents (Elt F) :=
  Host.divf (broadcastInDim S100000 ![] bcast_S_S100000 (constant S_ .f32 0x3F800000#32))
    (maximumf
      (Host.scatterAdd scatter_S100000_S1600000x1_S1600000_n_0_0_1
        (broadcastInDim S100000 ![] bcast_S_S100000 (constant S_ .f32 0x00000000#32))
        (broadcastInDim S1600000x1 ![0] bcast_S1600000_S1600000x1_0 d)
        (broadcastInDim S1600000 ![] bcast_S_S1600000 (constant S_ .f32 0x3F800000#32)))
      (broadcastInDim S100000 ![] bcast_S_S100000 (constant S_ .f32 0x3F800000#32)))

/-- The inverse degree as the one-column array the kernels read. -/
def invDeg (e : (⟨S2x1600000, .i32⟩ : BufTy).Contents (Elt F)) : (⟨S100000x1, .f32⟩ : BufTy).Contents (Elt F) :=
  shapeCast _ (invDegVec (dstIds e)) shapeCasts_S100000_S100000x1

variable (m : (ℓ : Loc nD τ sig) → Buf (Elt F) ℓ) (ρ : Dev nD → PrngReg)

/-! ## Entering the first kernel -/

theorem in0_src (c : Dev nD) : V1 m ρ c main_v1 = srcIds (m ((c : Thread nD τ).loc main_arg1)) := by
  dsimp only [V1, W1]; after_results; rfl
theorem in0_dst (c : Dev nD) : V1 m ρ c main_v3 = dstIds (m ((c : Thread nD τ).loc main_arg1)) := by
  dsimp only [V1, W1]; after_results; rfl
theorem in0_deg (c : Dev nD) : V1 m ρ c main_v12 = invDeg (m ((c : Thread nD τ).loc main_arg1)) := by
  dsimp only [V1, W1]; after_results; rfl
set_option maxHeartbeats 2000000 in
theorem in0_agg (c : Dev nD) : V1 m ρ c main_v22
    = aggOf (srcIds (m ((c : Thread nD τ).loc main_arg1))) (dstIds (m ((c : Thread nD τ).loc main_arg1))) (m ((c : Thread nD τ).loc main_arg0)) := by
  dsimp only [V1, W1]; after_results_simp <;> rfl

theorem in0_arg0 (c : Dev nD) : V1 m ρ c main_arg0 = m ((c : Thread nD τ).loc main_arg0) := by
  dsimp only [V1, W1]; after_results; try rfl
theorem in0_arg2 (c : Dev nD) : V1 m ρ c main_arg2 = m ((c : Thread nD τ).loc main_arg2) := by
  dsimp only [V1, W1]; after_results; try rfl
theorem in0_arg3 (c : Dev nD) : V1 m ρ c main_arg3 = m ((c : Thread nD τ).loc main_arg3) := by
  dsimp only [V1, W1]; after_results; try rfl
theorem in0_arg4 (c : Dev nD) : V1 m ρ c main_arg4 = m ((c : Thread nD τ).loc main_arg4) := by
  dsimp only [V1, W1]; after_results; try rfl
theorem in0_arg5 (c : Dev nD) : V1 m ρ c main_arg5 = m ((c : Thread nD τ).loc main_arg5) := by
  dsimp only [V1, W1]; after_results; try rfl
theorem in0_arg6 (c : Dev nD) : V1 m ρ c main_arg6 = m ((c : Thread nD τ).loc main_arg6) := by
  dsimp only [V1, W1]; after_results; try rfl
theorem in0_arg7 (c : Dev nD) : V1 m ρ c main_arg7 = m ((c : Thread nD τ).loc main_arg7) := by
  dsimp only [V1, W1]; after_results; try rfl
theorem in0_arg8 (c : Dev nD) : V1 m ρ c main_arg8 = m ((c : Thread nD τ).loc main_arg8) := by
  dsimp only [V1, W1]; after_results; try rfl
theorem in0_arg9 (c : Dev nD) : V1 m ρ c main_arg9 = m ((c : Thread nD τ).loc main_arg9) := by
  dsimp only [V1, W1]; after_results; try rfl
theorem in0_arg10 (c : Dev nD) : V1 m ρ c main_arg10 = m ((c : Thread nD τ).loc main_arg10) := by
  dsimp only [V1, W1]; after_results; try rfl

/-! ## Leaving the first kernel: what it read is as it was, its output is what its write-backs leave -/

theorem out0_src (c : Dev nD) : W2 m ρ c (Proc.devRef .tc main_v1) = srcIds (m ((c : Thread nD τ).loc main_arg1)) :=
  (W2_of_ne m ρ c main_v1 (by decide)).trans (in0_src m ρ c)
theorem out0_dst (c : Dev nD) : W2 m ρ c (Proc.devRef .tc main_v3) = dstIds (m ((c : Thread nD τ).loc main_arg1)) :=
  (W2_of_ne m ρ c main_v3 (by decide)).trans (in0_dst m ρ c)
theorem out0_deg (c : Dev nD) : W2 m ρ c (Proc.devRef .tc main_v12) = invDeg (m ((c : Thread nD τ).loc main_arg1)) :=
  (W2_arr m ρ c 2).trans (((dat0 (V1 m ρ) c).arrAt_in 2 rfl _).trans ((A_eq0 (V1 m ρ) c 2).trans (in0_deg m ρ c)))
theorem out0_res (c : Dev nD) : W2 m ρ c (Proc.devRef .tc main_v23) = (dat0 (V1 m ρ) c).arrAt 6 cfg0.N := W2_arr m ρ c 6
theorem out0_arg5 (c : Dev nD) : W2 m ρ c (Proc.devRef .tc main_arg5) = m ((c : Thread nD τ).loc main_arg5) :=
  (W2_of_ne m ρ c main_arg5 (by decide)).trans (in0_arg5 m ρ c)
theorem out0_arg6 (c : Dev nD) : W2 m ρ c (Proc.devRef .tc main_arg6) = m ((c : Thread nD τ).loc main_arg6) :=
  (W2_of_ne m ρ c main_arg6 (by decide)).trans (in0_arg6 m ρ c)
theorem out0_arg7 (c : Dev nD) : W2 m ρ c (Proc.devRef .tc main_arg7) = m ((c : Thread nD τ).loc main_arg7) :=
  (W2_of_ne m ρ c main_arg7 (by decide)).trans (in0_arg7 m ρ c)
theorem out0_arg8 (c : Dev nD) : W2 m ρ c (Proc.devRef .tc main_arg8) = m ((c : Thread nD τ).loc main_arg8) :=
  (W2_of_ne m ρ c main_arg8 (by decide)).trans (in0_arg8 m ρ c)
theorem out0_arg9 (c : Dev nD) : W2 m ρ c (Proc.devRef .tc main_arg9) = m ((c : Thread nD τ).loc main_arg9) :=
  (W2_of_ne m ρ c main_arg9 (by decide)).trans (in0_arg9 m ρ c)
theorem out0_arg10 (c : Dev nD) : W2 m ρ c (Proc.devRef .tc main_arg10) = m ((c : Thread nD τ).loc main_arg10) :=
  (W2_of_ne m ρ c main_arg10 (by decide)).trans (in0_arg10 m ρ c)

/-! ## Entering the second kernel -/

theorem in1_src (c : Dev nD) : V3 m ρ c main_v1 = srcIds (m ((c : Thread nD τ).loc main_arg1)) := by
  dsimp only [V3, W3]; after_results; exact out0_src m ρ c
theorem in1_dst (c : Dev nD) : V3 m ρ c main_v3 = dstIds (m ((c : Thread nD τ).loc main_arg1)) := by
  dsimp only [V3, W3]; after_results; exact out0_dst m ρ c
theorem in1_deg (c : Dev nD) : V3 m ρ c main_v12 = invDeg (m ((c : Thread nD τ).loc main_arg1)) := by
  dsimp only [V3, W3]; after_results; exact out0_deg m ρ c
theorem in1_feat (c : Dev nD) : V3 m ρ c main_v23 = (dat0 (V1 m ρ) c).arrAt 6 cfg0.N := by
  dsimp only [V3, W3]; after_results; exact out0_res m ρ c
set_option maxHeartbeats 1000000 in
theorem in1_agg (c : Dev nD) : V3 m ρ c main_v33
    = aggOf (srcIds (m ((c : Thread nD τ).loc main_arg1))) (dstIds (m ((c : Thread nD τ).loc main_arg1))) ((dat0 (V1 m ρ) c).arrAt 6 cfg0.N) := by
  show StableHlo.after hostOps1 (W2 m ρ c) (Proc.devRef .tc main_v33) = _
  after_results
  rw [out0_src m ρ c, out0_dst m ρ c, out0_res m ρ c]; rfl
theorem in1_arg5 (c : Dev nD) : V3 m ρ c main_arg5 = m ((c : Thread nD τ).loc main_arg5) := by
  dsimp only [V3, W3]; after_results; exact out0_arg5 m ρ c
theorem in1_arg6 (c : Dev nD) : V3 m ρ c main_arg6 = m ((c : Thread nD τ).loc main_arg6) := by
  dsimp only [V3, W3]; after_results; exact out0_arg6 m ρ c
theorem in1_arg7 (c : Dev nD) : V3 m ρ c main_arg7 = m ((c : Thread nD τ).loc main_arg7) := by
  dsimp only [V3, W3]; after_results; exact out0_arg7 m ρ c
theorem in1_arg8 (c : Dev nD) : V3 m ρ c main_arg8 = m ((c : Thread nD τ).loc main_arg8) := by
  dsimp only [V3, W3]; after_results; exact out0_arg8 m ρ c
theorem in1_arg9 (c : Dev nD) : V3 m ρ c main_arg9 = m ((c : Thread nD τ).loc main_arg9) := by
  dsimp only [V3, W3]; after_results; exact out0_arg9 m ρ c
theorem in1_arg10 (c : Dev nD) : V3 m ρ c main_arg10 = m ((c : Thread nD τ).loc main_arg10) := by
  dsimp only [V3, W3]; after_results; exact out0_arg10 m ρ c

/-! ## Leaving the second kernel -/

theorem out1_src (c : Dev nD) : W4 m ρ c (Proc.devRef .tc main_v1) = srcIds (m ((c : Thread nD τ).loc main_arg1)) :=
  (W4_of_ne m ρ c main_v1 (by decide)).trans (in1_src m ρ c)
theorem out1_dst (c : Dev nD) : W4 m ρ c (Proc.devRef .tc main_v3) = dstIds (m ((c : Thread nD τ).loc main_arg1)) :=
  (W4_of_ne m ρ c main_v3 (by decide)).trans (in1_dst m ρ c)
theorem out1_deg (c : Dev nD) : W4 m ρ c (Proc.devRef .tc main_v12) = invDeg (m ((c : Thread nD τ).loc main_arg1)) :=
  (W4_arr m ρ c 2).trans (((dat1 (V3 m ρ) c).arrAt_in 2 rfl _).trans ((A_eq1 (V3 m ρ) c 2).trans (in1_deg m ρ c)))
theorem out1_res (c : Dev nD) : W4 m ρ c (Proc.devRef .tc main_v34) = (dat1 (V3 m ρ) c).arrAt 6 cfg1.N := W4_arr m ρ c 6
theorem out1_arg8 (c : Dev nD) : W4 m ρ c (Proc.devRef .tc main_arg8) = m ((c : Thread nD τ).loc main_arg8) :=
  (W4_of_ne m ρ c main_arg8 (by decide)).trans (in1_arg8 m ρ c)
theorem out1_arg9 (c : Dev nD) : W4 m ρ c (Proc.devRef .tc main_arg9) = m ((c : Thread nD τ).loc main_arg9) :=
  (W4_of_ne m ρ c main_arg9 (by decide)).trans (in1_arg9 m ρ c)
theorem out1_arg10 (c : Dev nD) : W4 m ρ c (Proc.devRef .tc main_arg10) = m ((c : Thread nD τ).loc main_arg10) :=
  (W4_of_ne m ρ c main_arg10 (by decide)).trans (in1_arg10 m ρ c)

/-! ## Entering the third kernel -/

theorem in2_deg (c : Dev nD) : V5 m ρ c main_v12 = invDeg (m ((c : Thread nD τ).loc main_arg1)) := by
  dsimp only [V5, W5]; after_results; exact out1_deg m ρ c
theorem in2_feat (c : Dev nD) : V5 m ρ c main_v34 = (dat1 (V3 m ρ) c).arrAt 6 cfg1.N := by
  dsimp only [V5, W5]; after_results; exact out1_res m ρ c
set_option maxHeartbeats 1000000 in
theorem in2_agg (c : Dev nD) : V5 m ρ c main_v44
    = aggOf (srcIds (m ((c : Thread nD τ).loc main_arg1))) (dstIds (m ((c : Thread nD τ).loc main_arg1))) ((dat1 (V3 m ρ) c).arrAt 6 cfg1.N) := by
  show StableHlo.after hostOps2 (W4 m ρ c) (Proc.devRef .tc main_v44) = _
  after_results
  rw [out1_src m ρ c, out1_dst m ρ c, out1_res m ρ c]; rfl
theorem in2_arg8 (c : Dev nD) : V5 m ρ c main_arg8 = m ((c : Thread nD τ).loc main_arg8) := by
  dsimp only [V5, W5]; after_results; exact out1_arg8 m ρ c
theorem in2_arg9 (c : Dev nD) : V5 m ρ c main_arg9 = m ((c : Thread nD τ).loc main_arg9) := by
  dsimp only [V5, W5]; after_results; exact out1_arg9 m ρ c
theorem in2_arg10 (c : Dev nD) : V5 m ρ c main_arg10 = m ((c : Thread nD τ).loc main_arg10) := by
  dsimp only [V5, W5]; after_results; exact out1_arg10 m ρ c

/-! ## The result array after the third kernel -/

theorem out2_res (c : Dev nD) : W6 m ρ c (Proc.devRef .tc main_v45) = (dat2 (V5 m ρ) c).arrAt 6 cfg2.N := W6_arr m ρ c 6

end Cert.KernelIdeal.Glue

end
-- ==== Proof.Spec.lean ====
/-
  One GraphSAGE layer on R nodes with 128 input features and M output features, as a function of its operands
  on the extended reals:

    pre (p, q)  =  ( Σ_κ (a (p, κ) · d (p, 0)) · wl (κ, q)  +  Σ_κ h (p, κ) · wr (κ, q) )  +  b q

  where a is the neighbour sum, d the inverse degree (one column), h the node features, wl / wr the two weight
  matrices and b the bias.  The hidden layers end in max (·, 0); the last layer ends in the row-wise
  log-softmax  z q − max z − log Σ_q' exp (z q' − max z).

  Every entry of a layer depends on ONE row of a, d and h: a block of consecutive rows of the layer of the whole
  arrays is the layer of the same blocks of rows (`relu_rows`, `lsm_rows`).
-/
import Idealize.ShloMosaic.Lib.ValueIdx
import Idealize.ShloMosaic.PureOps.Ideal

noncomputable section

namespace Cert.Sage

open Idealize.ShloMosaic Idealize.ShloMosaic.ValueIdx

variable {R M : ℕ}

/-- The pre-activation of node `p`, output feature `q`. -/
def pre (a h : (⟨2, ![R, 128]⟩ : Shape).Idx → EReal) (d : (⟨2, ![R, 1]⟩ : Shape).Idx → EReal)
    (wl wr : (⟨2, ![128, M]⟩ : Shape).Idx → EReal) (b : (⟨1, ![M]⟩ : Shape).Idx → EReal) (p : Fin R) (q : Fin M) : EReal :=
  ((∑ κ : Fin 128, (a (ix2 p κ) * d (ix2 p 0)) * wl (ix2 κ q)) + ∑ κ : Fin 128, h (ix2 p κ) * wr (ix2 κ q)) + b (ix1 q)

/-- A hidden layer: the pre-activation clipped below at zero. -/
def reluLayer (a h : (⟨2, ![R, 128]⟩ : Shape).Idx → EReal) (d : (⟨2, ![R, 1]⟩ : Shape).Idx → EReal)
    (wl wr : (⟨2, ![128, M]⟩ : Shape).Idx → EReal) (b : (⟨1, ![M]⟩ : Shape).Idx → EReal) : (⟨2, ![R, M]⟩ : Shape).Idx → EReal :=
  fun j => max (pre a h d wl wr b (j 0) (j 1)) 0

/-- The largest pre-activation of node `p` (from −∞). -/
def rowMax (a h : (⟨2, ![R, 128]⟩ : Shape).Idx → EReal) (d : (⟨2, ![R, 1]⟩ : Shape).Idx → EReal)
    (wl wr : (⟨2, ![128, M]⟩ : Shape).Idx → EReal) (b : (⟨1, ![M]⟩ : Shape).Idx → EReal) (p : Fin R) : EReal :=
  (Finset.univ : Finset (Fin M)).fold max ⊥ (fun q => pre a h d wl wr b p q)

/-- The last layer: the row-wise log-softmax of the pre-activation. -/
def lsmLayer (a h : (⟨2, ![R, 128]⟩ : Shape).Idx → EReal) (d : (⟨2, ![R, 1]⟩ : Shape).Idx → EReal)
    (wl wr : (⟨2, ![128, M]⟩ : Shape).Idx → EReal) (b : (⟨1, ![M]⟩ : Shape).Idx → EReal) : (⟨2, ![R, M]⟩ : Shape).Idx → EReal :=
  fun j => (pre a h d wl wr b (j 0) (j 1) - rowMax a h d wl wr b (j 0))
    - Ideal.log (∑ q : Fin M, Ideal.exp (pre a h d wl wr b (j 0) q - rowMax a h d wl wr b (j 0)))

variable {R' : ℕ}

/-- Rows `p'` of the small operands being rows `p` of the large ones, the pre-activations agree. -/
theorem pre_rows (a h : (⟨2, ![R, 128]⟩ : Shape).Idx → EReal) (d : (⟨2, ![R, 1]⟩ : Shape).Idx → EReal)
    (a' h' : (⟨2, ![R', 128]⟩ : Shape).Idx → EReal) (d' : (⟨2, ![R', 1]⟩ : Shape).Idx → EReal)
    (wl wr : (⟨2, ![128, M]⟩ : Shape).Idx → EReal) (b : (⟨1, ![M]⟩ : Shape).Idx → EReal) (p : Fin R) (p' : Fin R')
    (ha : ∀ κ, a' (ix2 p' κ) = a (ix2 p κ)) (hh : ∀ κ, h' (ix2 p' κ) = h (ix2 p κ)) (hd : d' (ix2 p' 0) = d (ix2 p 0)) (q : Fin M) :
    pre a' h' d' wl wr b p' q = pre a h d wl wr b p q := by
  unfold pre
  simp only [ha, hh, hd]

theorem relu_rows (a h : (⟨2, ![R, 128]⟩ : Shape).Idx → EReal) (d : (⟨2, ![R, 1]⟩ : Shape).Idx → EReal)
    (a' h' : (⟨2, ![R', 128]⟩ : Shape).Idx → EReal) (d' : (⟨2, ![R', 1]⟩ : Shape).Idx → EReal)
    (wl wr : (⟨2, ![128, M]⟩ : Shape).Idx → EReal) (b : (⟨1, ![M]⟩ : Shape).Idx → EReal) (p : Fin R) (p' : Fin R')
    (ha : ∀ κ, a' (ix2 p' κ) = a (ix2 p κ)) (hh : ∀ κ, h' (ix2 p' κ) = h (ix2 p κ)) (hd : d' (ix2 p' 0) = d (ix2 p 0)) (q : Fin M) :
    reluLayer a' h' d' wl wr b (ix2 p' q) = reluLayer a h d wl wr b (ix2 p q) := by
  show max (pre a' h' d' wl wr b p' q) 0 = max (pre a h d wl wr b p q) 0
  rw [pre_rows a h d a' h' d' wl wr b p p' ha hh hd q]

theorem lsm_rows (a h : (⟨2, ![R, 128]⟩ : Shape).Idx → EReal) (d : (⟨2, ![R, 1]⟩ : Shape).Idx → EReal)
    (a' h' : (⟨2, ![R', 128]⟩ : Shape).Idx → EReal) (d' : (⟨2, ![R', 1]⟩ : Shape).Idx → EReal)
    (wl wr : (⟨2, ![128, M]⟩ : Shape).Idx → EReal) (b : (⟨1, ![M]⟩ : Shape).Idx → EReal) (p : Fin R) (p' : Fin R')
    (ha : ∀ κ, a' (ix2 p' κ) = a (ix2 p κ)) (hh : ∀ κ, h' (ix2 p' κ) = h (ix2 p κ)) (hd : d' (ix2 p' 0) = d (ix2 p 0)) (q : Fin M) :
    lsmLayer a' h' d' wl wr b (ix2 p' q) = lsmLayer a h d wl wr b (ix2 p q) := by
  have e : ∀ q, pre a' h' d' wl wr b p' q = pre a h d wl wr b p q := pre_rows a h d a' h' d' wl wr b p p' ha hh hd
  show (pre a' h' d' wl wr b p' q - rowMax a' h' d' wl wr b p') - Ideal.log (∑ q, Ideal.exp (pre a' h' d' wl wr b p' q - rowMax a' h' d' wl wr b p'))
    = (pre a h d wl wr b p q - rowMax a h d wl wr b p) - Ideal.log (∑ q, Ideal.exp (pre a h d wl wr b p q - rowMax a h d wl wr b p))
  have em : rowMax a' h' d' wl wr b p' = rowMax a h d wl wr b p := by
    unfold rowMax; simp only [e]
  simp only [e, em]

/-- The reference adds the bias before the second product; addition of extended reals is commutative and
    associative, so the order does not matter. -/
theorem add_bias_comm (x y z : EReal) : (x + z) + y = (x + y) + z := add_right_comm x z y

end Cert.Sage

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.Region0.lean ====
/-
  Region 0: the first hidden layer. On each block of 5000 consecutive nodes the body stores
      max ( ((a · d) W_l + h W_r) + b , 0 )
  of the block's rows of the neighbour sum a, the inverse degree d (one column) and the features h, with the two
  weight matrices and the bias whole. At the ideal values each product into a zero accumulator is the exact sum over
  the 128 contraction positions and the conversions to the narrow format are the identity, so the stored block is the
  hidden layer of the blocks (pay_apply). An entry of the layer depends on ONE row of a, d and h, and row r of the
  block of point t is row 5000 t + r of the array, so the block written back at point t is block t of the layer of the
  whole arrays (flushed_eq); the 20 blocks tile the 100000 rows (cover), hence the result array is the layer (value).
-/
import proofs.«141394_j36197984370866_1_alg».proof.Proof.Gen.KernelIdeal.Frame
import proofs.«141394_j36197984370866_1_alg».proof.Proof.Spec
import proofs.«141394_j36197984370866_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

/-- The product's dimension numbers are those of a plain matrix product. -/
theorem dot_plain : Cert.PlainDot.Plain dot_S5000x128_S128x128_S5000x128_1_0_0_1_n_n := ⟨rfl, rfl, rfl, rfl, rfl, rfl⟩

/-- A column [a, 1] broadcast to [a, b] reads, at (p, q), the column's entry at row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The left operand of the first product at (r, κ): the neighbour sum scaled by the row's inverse degree. -/
theorem lhs_apply (x0 : Vec Ideal S5000x128 .f32) (x2 : Vec Ideal S5000x1 .f32) (r : Fin 5000) (κ : Fin 128) :
    (truncf .bf16 (mulf (shapeCast S5000x128 x0 shapeCasts_S5000x128_S5000x128)
        (broadcastTo S5000x128 (shapeCast S5000x1 x2 shapeCasts_S5000x1_S5000x1) broadcasts_S5000x1_S5000x128)) bitsLt_bf16_f32 : FVec Ideal S5000x128 .bf16) (ix2 r κ)
      = (x0 (ix2 r κ) : EReal) * (x2 (ix2 r 0) : EReal) := by
  show (shapeCast S5000x128 x0 shapeCasts_S5000x128_S5000x128 (ix2 r κ) : EReal)
      * (broadcastTo S5000x128 (shapeCast S5000x1 x2 shapeCasts_S5000x1_S5000x1) broadcasts_S5000x1_S5000x128 (ix2 r κ) : EReal) = _
  rw [shapeCast_self, shapeCast_self]
  exact congrArg (fun z : EReal => (x0 (ix2 r κ) : EReal) * z) (broadcastTo_a1_ab_apply x2 broadcasts_S5000x1_S5000x128 r κ)

/-- The bias [128] viewed [1, 128] and broadcast over the rows reads, at (r, q), the bias at q. -/
theorem bias_apply (x5 : Vec Ideal S128 .f32) (r : Fin 5000) (q : Fin 128) :
    (broadcastTo S5000x128 (shapeCast S1x128 x5 shapeCasts_S128_S1x128) broadcasts_S1x128_S5000x128 : FVec Ideal S5000x128 .f32) (ix2 r q)
      = (x5 (ix1 q) : EReal) :=
  (broadcastTo_1b_ab_apply (shapeCast S1x128 x5 shapeCasts_S128_S1x128) broadcasts_S1x128_S5000x128 r q).trans
    (shapeCast_a_1a_apply x5 shapeCasts_S128_S1x128 (0 : Fin 1) q)

/-- The body's stored value at (r, q) is the hidden layer of the loaded blocks at (r, q): both products are exact
    sums over the contraction index, the conversions to the narrow format are the identity, the zero word is 0. -/
theorem pay_apply (x0 x1 : Vec Ideal S5000x128 .f32) (x2 : Vec Ideal S5000x1 .f32) (x3 x4 : Vec Ideal S128x128 .f32)
    (x5 : Vec Ideal S128 .f32) (r : Fin 5000) (q : Fin 128) :
    (k0_pay1 x0 x2 x1 x3 x4 x5 : FVec Ideal S5000x128 .f32) (ix2 r q)
      = Cert.Sage.reluLayer (R := 5000) (M := 128) x0 x1 x2 x3 x4 x5 (ix2 r q) := by
  unfold k0_pay1
  show max ((matmul dot_S5000x128_S128x128_S5000x128_1_0_0_1_n_n none _ _ (constant S5000x128 .f32 0x00000000#32) (ix2 r q)
        + matmul dot_S5000x128_S128x128_S5000x128_1_0_0_1_n_n none _ _ (constant S5000x128 .f32 0x00000000#32) (ix2 r q))
        + (broadcastTo S5000x128 (shapeCast S1x128 x5 shapeCasts_S128_S1x128) broadcasts_S1x128_S5000x128 : FVec Ideal S5000x128 .f32) (ix2 r q))
      (Ideal.ofBits .f32 0x00000000#32) = max (Cert.Sage.pre x0 x1 x2 x3 x4 x5 r q) 0
  rw [Cert.PlainDot.matmul_zero_apply dot_plain rfl rfl, Cert.PlainDot.matmul_zero_apply dot_plain rfl rfl, bias_apply,
    Ideal.ofBits_zero_f32]
  unfold Cert.Sage.pre
  simp only [lhs_apply]
  rfl

variable (V : (c : Dev nD) → (b : Ref sig .tc) → Buf (Elt Ideal) ((c : Thread nD τ).loc b))

theorem hz2 : (![0, 0] : Fin 2 → Nat) = fun _ => 0 := funext fun a => by fin_cases a <;> rfl

theorem hz1 : (![0] : Fin 1 → Nat) = fun _ => 0 := funext fun a => by fin_cases a <;> rfl

/-- The hidden layer of the arrays as the region finds them. -/
abbrev G (c : Dev nD) : S100000x128.Idx → EReal :=
  Cert.Sage.reluLayer (V c main_v22 : S100000x128.Idx → EReal) (V c main_arg0 : S100000x128.Idx → EReal) (V c main_v12 : S100000x1.Idx → EReal)
    (V c main_arg2 : S128x128.Idx → EReal) (V c main_arg3 : S128x128.Idx → EReal) (V c main_arg4 : S128.Idx → EReal)

/-- The index maps over the grid: the three row-blocked inputs and the output are at block (t, 0) at point t, the
    weights and the bias at block 0. -/
theorem idx_facts : ∀ t : Fin cfg0.N, win0_6.index t (0 : Fin 2) = t.val ∧ win0_6.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0 ∧ t.val < 20 :=
  (by decide +kernel : ∀ t : Fin grid0.N, _)

/-- Row r of the neighbour-sum block of point t is row 5000 t + r of the array. -/
theorem blk0_apply (c : Dev nD) (t : Fin cfg0.N) (r : Fin 5000) (κ : Fin 128) (p : Fin 100000) (hp : p.val = t.val * 5000 + r.val) :
    (iblk0 V c 0 t : S5000x128.Idx → EReal) (ix2 r κ) = (V c main_v22 : S100000x128.Idx → EReal) (ix2 p κ) := by
  obtain ⟨-, -, e0, e1, -⟩ := idx_facts t
  show (V c main_v22 : S100000x128.Idx → EReal) (((cfg0.win 0).blk t).view.emb (ix2 r κ)) = _
  refine congrArg _ (funext fun a => Fin.ext ?_)
  match a with
  | ⟨0, _⟩ => show win0_0.index t (0 : Fin 2) * 5000 + 1 * r.val = p.val; omega
  | ⟨1, _⟩ => show win0_0.index t (1 : Fin 2) * 128 + 1 * κ.val = κ.val; omega

/-- Row r of the feature block of point t is row 5000 t + r of the array. -/
theorem blk1_apply (c : Dev nD) (t : Fin cfg0.N) (r : Fin 5000) (κ : Fin 128) (p : Fin 100000) (hp : p.val = t.val * 5000 + r.val) :
    (iblk0 V c 1 t : S5000x128.Idx → EReal) (ix2 r κ) = (V c main_arg0 : S100000x128.Idx → EReal) (ix2 p κ) := by
  obtain ⟨-, -, -, -, e0, e1, -⟩ := idx_facts t
  show (V c main_arg0 : S100000x128.Idx → EReal) (((cfg0.win 1).blk t).view.emb (ix2 r κ)) = _
  refine congrArg _ (funext fun a => Fin.ext ?_)
  match a with
  | ⟨0, _⟩ => show win0_1.index t (0 : Fin 2) * 5000 + 1 * r.val = p.val; omega
  | ⟨1, _⟩ => show win0_1.index t (1 : Fin 2) * 128 + 1 * κ.val = κ.val; omega

/-- Row r of the inverse-degree block of point t is row 5000 t + r of the column. -/
theorem blk2_apply (c : Dev nD) (t : Fin cfg0.N) (r : Fin 5000) (p : Fin 100000) (hp : p.val = t.val * 5000 + r.val) :
    (iblk0 V c 2 t : S5000x1.Idx → EReal) (ix2 r 0) = (V c main_v12 : S100000x1.Idx → EReal) (ix2 p 0) := by
  obtain ⟨-, -, -, -, -, -, e0, e1, -⟩ := idx_facts t
  show (V c main_v12 : S100000x1.Idx → EReal) (((cfg0.win 2).blk t).view.emb (ix2 r 0)) = _
  refine congrArg _ (funext fun a => Fin.ext ?_)
  match a with
  | ⟨0, _⟩ => show win0_2.index t (0 : Fin 2) * 5000 + 1 * r.val = p.val; omega
  | ⟨1, _⟩ => show win0_2.index t (1 : Fin 2) * 1 + 1 * 0 = 0; omega

/-- The first weight matrix is staged whole. -/
theorem blk3_eq (c : Dev nD) (t : Fin cfg0.N) : (iblk0 V c 3 t : S128x128.Idx → EReal) = (V c main_arg2 : S128x128.Idx → EReal) := by
  obtain ⟨-, -, -, -, -, -, -, -, e0, e1, -⟩ := idx_facts t
  funext y
  show (V c main_arg2 : S128x128.Idx → EReal) (((cfg0.win 3).blk t).view.emb y) = _
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The second weight matrix is staged whole. -/
theorem blk4_eq (c : Dev nD) (t : Fin cfg0.N) : (iblk0 V c 4 t : S128x128.Idx → EReal) = (V c main_arg3 : S128x128.Idx → EReal) := by
  obtain ⟨-, -, -, -, -, -, -, -, -, -, e0, e1, -⟩ := idx_facts t
  funext y
  show (V c main_arg3 : S128x128.Idx → EReal) (((cfg0.win 4).blk t).view.emb y) = _
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The bias is staged whole. -/
theorem blk5_eq (c : Dev nD) (t : Fin cfg0.N) : (iblk0 V c 5 t : S128.Idx → EReal) = (V c main_arg4 : S128.Idx → EReal) := by
  obtain ⟨-, -, -, -, -, -, -, -, -, -, -, -, e0, -⟩ := idx_facts t
  funext y
  show (V c main_arg4 : S128.Idx → EReal) (((cfg0.win 5).blk t).view.emb y) = _
  refine congrArg _ (funext fun a => Fin.ext ?_)
  match a with
  | ⟨0, _⟩ => show win0_5.index t (0 : Fin 1) * 128 + 1 * (y 0).val = (y 0).val; omega

/-- WHAT POINT t WRITES BACK is block t of the hidden layer of the arrays as the region finds them: entry (r, q) of
    the block depends on row r of the three row-blocked inputs, which is row 5000 t + r of their arrays, and on the
    weights and the bias, staged whole. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz2]
  simp only [View.ld_unit_zero (S := S5000x128) hz2, View.ld_unit_zero (S := S5000x1) hz2, View.ld_unit_zero (S := S128x128) hz2,
    View.ld_unit_zero (S := S128) hz1]
  obtain ⟨e0, e1, -, -, -, -, -, -, -, -, -, -, -, ht⟩ := idx_facts t
  funext j
  obtain ⟨r, q, rfl⟩ : ∃ (r : Fin 5000) (q : Fin 128), j = ix2 r q := ⟨j 0, j 1, eq_ix2 j⟩
  have hr : r.val < 5000 := r.isLt
  show (k0_pay1 (iblk0 V c 0 t) (iblk0 V c 2 t) (iblk0 V c 1 t) (iblk0 V c 3 t) (iblk0 V c 4 t) (iblk0 V c 5 t) : FVec Ideal S5000x128 .f32) (ix2 r q)
    = G V c (((cfg0.win 6).blk t).view.emb (ix2 r q))
  have hemb : ((cfg0.win 6).blk t).view.emb (ix2 r q) = ix2 (⟨t.val * 5000 + r.val, by omega⟩ : Fin 100000) q := by
    funext a; apply Fin.ext
    match a with
    | ⟨0, _⟩ => show win0_6.index t (0 : Fin 2) * 5000 + 1 * r.val = t.val * 5000 + r.val; omega
    | ⟨1, _⟩ => show win0_6.index t (1 : Fin 2) * 128 + 1 * q.val = q.val; omega
  rw [hemb]
  refine (pay_apply (iblk0 V c 0 t) (iblk0 V c 1 t) (iblk0 V c 2 t) (iblk0 V c 3 t) (iblk0 V c 4 t) (iblk0 V c 5 t) r q).trans ?_
  rw [blk3_eq, blk4_eq, blk5_eq]
  exact Cert.Sage.relu_rows _ _ _ _ _ _ _ _ _ ⟨t.val * 5000 + r.val, by omega⟩ r
    (fun κ => blk0_apply V c t r κ _ rfl) (fun κ => blk1_apply V c t r κ _ rfl) (blk2_apply V c t r _ rfl) q

/-- An index of the array is in point t's block iff each coordinate is in the block's range on its axis. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v23).slice (win0_6.rect t)).set ↔ _
  rw [View.set_slice_whole, Rect.mem_set_unit]
  exact Iff.rfl

/-- Every row lies in the block of the point (row / 5000): 20 blocks of 5000 rows tile the 100000 rows. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : (i 0).val / 5000 < cfg0.N := Nat.lt_of_lt_of_eq (by omega) N_0.symm
  obtain ⟨e0, e1, -⟩ := idx_facts ⟨(i 0).val / 5000, hN⟩
  refine ⟨⟨(i 0).val / 5000, hN⟩, flush0_6 _, ?_⟩
  rw [mem_blk]
  intro a
  match a with
  | ⟨0, _⟩ =>
    show win0_6.index ⟨(i 0).val / 5000, hN⟩ (0 : Fin 2) * 5000 ≤ (i 0).val ∧ (i 0).val < win0_6.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, hN⟩ (1 : Fin 2) * 128 ≤ (i 1).val ∧ (i 1).val < win0_6.index ⟨(i 0).val / 5000, hN⟩ (1 : Fin 2) * 128 + 128
    rw [e1]; omega

/-- THE ARRAY after the region: the hidden layer of the arrays the region found. -/
theorem value (c : Dev nD) :
    ((dat0 V c).arrAt 6 cfg0.N : S100000x128.Idx → EReal)
      = Cert.Sage.reluLayer (V c main_v22 : S100000x128.Idx → EReal) (V c main_arg0 : S100000x128.Idx → EReal) (V c main_v12 : S100000x1.Idx → EReal)
          (V c main_arg2 : S128x128.Idx → EReal) (V c main_arg3 : S128x128.Idx → EReal) (V c main_arg4 : S128.Idx → EReal) :=
  (dat0 V c).arrAt_eq_of_cover 6 (G V c) (fun t _ => flushed_eq V c t) cover

end Cert.KernelIdeal.Region0

end
-- ==== Proof.Region1.lean ====
/-
  Region 1: the second hidden layer. On each block of 5000 consecutive nodes the body stores
      max ( ((a · d) W_l + h W_r) + b , 0 )
  of the block's rows of the neighbour sum a, the inverse degree d (one column) and the features h, with the two
  weight matrices and the bias whole. At the ideal values each product into a zero accumulator is the exact sum over
  the 128 contraction positions and the conversions to the narrow format are the identity, so the stored block is the
  hidden layer of the blocks (pay_apply). An entry of the layer depends on ONE row of a, d and h, and row r of the
  block of point t is row 5000 t + r of the array, so the block written back at point t is block t of the layer of the
  whole arrays (flushed_eq); the 20 blocks tile the 100000 rows (cover), hence the result array is the layer (value).
-/
import proofs.«141394_j36197984370866_1_alg».proof.Proof.Gen.KernelIdeal.Frame
import proofs.«141394_j36197984370866_1_alg».proof.Proof.Spec
import proofs.«141394_j36197984370866_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

/-- The product's dimension numbers are those of a plain matrix product. -/
theorem dot_plain : Cert.PlainDot.Plain dot_S5000x128_S128x128_S5000x128_1_0_0_1_n_n := ⟨rfl, rfl, rfl, rfl, rfl, rfl⟩

/-- A column [a, 1] broadcast to [a, b] reads, at (p, q), the column's entry at row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The left operand of the first product at (r, κ): the neighbour sum scaled by the row's inverse degree. -/
theorem lhs_apply (x0 : Vec Ideal S5000x128 .f32) (x2 : Vec Ideal S5000x1 .f32) (r : Fin 5000) (κ : Fin 128) :
    (truncf .bf16 (mulf (shapeCast S5000x128 x0 shapeCasts_S5000x128_S5000x128)
        (broadcastTo S5000x128 (shapeCast S5000x1 x2 shapeCasts_S5000x1_S5000x1) broadcasts_S5000x1_S5000x128)) bitsLt_bf16_f32 : FVec Ideal S5000x128 .bf16) (ix2 r κ)
      = (x0 (ix2 r κ) : EReal) * (x2 (ix2 r 0) : EReal) := by
  show (shapeCast S5000x128 x0 shapeCasts_S5000x128_S5000x128 (ix2 r κ) : EReal)
      * (broadcastTo S5000x128 (shapeCast S5000x1 x2 shapeCasts_S5000x1_S5000x1) broadcasts_S5000x1_S5000x128 (ix2 r κ) : EReal) = _
  rw [shapeCast_self, shapeCast_self]
  exact congrArg (fun z : EReal => (x0 (ix2 r κ) : EReal) * z) (broadcastTo_a1_ab_apply x2 broadcasts_S5000x1_S5000x128 r κ)

/-- The left operand of the second product at (r, κ): the feature block, its cast to its own shape the identity. -/
theorem feat_apply (x1 : Vec Ideal S5000x128 .f32) (r : Fin 5000) (κ : Fin 128) :
    (truncf .bf16 (shapeCast S5000x128 x1 shapeCasts_S5000x128_S5000x128) bitsLt_bf16_f32 : FVec Ideal S5000x128 .bf16) (ix2 r κ)
      = (x1 (ix2 r κ) : EReal) := by
  show (shapeCast S5000x128 x1 shapeCasts_S5000x128_S5000x128 (ix2 r κ) : EReal) = _
  rw [shapeCast_self]

/-- The bias [128] viewed [1, 128] and broadcast over the rows reads, at (r, q), the bias at q. -/
theorem bias_apply (x5 : Vec Ideal S128 .f32) (r : Fin 5000) (q : Fin 128) :
    (broadcastTo S5000x128 (shapeCast S1x128 x5 shapeCasts_S128_S1x128) broadcasts_S1x128_S5000x128 : FVec Ideal S5000x128 .f32) (ix2 r q)
      = (x5 (ix1 q) : EReal) :=
  (broadcastTo_1b_ab_apply (shapeCast S1x128 x5 shapeCasts_S128_S1x128) broadcasts_S1x128_S5000x128 r q).trans
    (shapeCast_a_1a_apply x5 shapeCasts_S128_S1x128 (0 : Fin 1) q)

/-- The body's stored value at (r, q) is the hidden layer of the loaded blocks at (r, q): both products are exact
    sums over the contraction index, the conversions to the narrow format are the identity, the zero word is 0. -/
theorem pay_apply (x0 x1 : Vec Ideal S5000x128 .f32) (x2 : Vec Ideal S5000x1 .f32) (x3 x4 : Vec Ideal S128x128 .f32)
    (x5 : Vec Ideal S128 .f32) (r : Fin 5000) (q : Fin 128) :
    (k1_pay1 x0 x2 x1 x3 x4 x5 : FVec Ideal S5000x128 .f32) (ix2 r q)
      = Cert.Sage.reluLayer (R := 5000) (M := 128) x0 x1 x2 x3 x4 x5 (ix2 r q) := by
  unfold k1_pay1
  show max ((matmul dot_S5000x128_S128x128_S5000x128_1_0_0_1_n_n none _ _ (constant S5000x128 .f32 0x00000000#32) (ix2 r q)
        + matmul dot_S5000x128_S128x128_S5000x128_1_0_0_1_n_n none _ _ (constant S5000x128 .f32 0x00000000#32) (ix2 r q))
        + (broadcastTo S5000x128 (shapeCast S1x128 x5 shapeCasts_S128_S1x128) broadcasts_S1x128_S5000x128 : FVec Ideal S5000x128 .f32) (ix2 r q))
      (Ideal.ofBits .f32 0x00000000#32) = max (Cert.Sage.pre x0 x1 x2 x3 x4 x5 r q) 0
  rw [Cert.PlainDot.matmul_zero_apply dot_plain rfl rfl, Cert.PlainDot.matmul_zero_apply dot_plain rfl rfl, bias_apply,
    Ideal.ofBits_zero_f32]
  unfold Cert.Sage.pre
  simp only [lhs_apply, feat_apply]
  rfl

variable (V : (c : Dev nD) → (b : Ref sig .tc) → Buf (Elt Ideal) ((c : Thread nD τ).loc b))

theorem hz2 : (![0, 0] : Fin 2 → Nat) = fun _ => 0 := funext fun a => by fin_cases a <;> rfl

theorem hz1 : (![0] : Fin 1 → Nat) = fun _ => 0 := funext fun a => by fin_cases a <;> rfl

/-- The hidden layer of the arrays as the region finds them. -/
abbrev G (c : Dev nD) : S100000x128.Idx → EReal :=
  Cert.Sage.reluLayer (V c main_v33 : S100000x128.Idx → EReal) (V c main_v23 : S100000x128.Idx → EReal) (V c main_v12 : S100000x1.Idx → EReal)
    (V c main_arg5 : S128x128.Idx → EReal) (V c main_arg6 : S128x128.Idx → EReal) (V c main_arg7 : S128.Idx → EReal)

/-- The index maps over the grid: the three row-blocked inputs and the output are at block (t, 0) at point t, the
    weights and the bias at block 0. -/
theorem idx_facts : ∀ t : Fin cfg1.N, win1_6.index t (0 : Fin 2) = t.val ∧ win1_6.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0 ∧ t.val < 20 :=
  (by decide +kernel : ∀ t : Fin grid1.N, _)

/-- Row r of the neighbour-sum block of point t is row 5000 t + r of the array. -/
theorem blk0_apply (c : Dev nD) (t : Fin cfg1.N) (r : Fin 5000) (κ : Fin 128) (p : Fin 100000) (hp : p.val = t.val * 5000 + r.val) :
    (iblk1 V c 0 t : S5000x128.Idx → EReal) (ix2 r κ) = (V c main_v33 : S100000x128.Idx → EReal) (ix2 p κ) := by
  obtain ⟨-, -, e0, e1, -⟩ := idx_facts t
  show (V c main_v33 : S100000x128.Idx → EReal) (((cfg1.win 0).blk t).view.emb (ix2 r κ)) = _
  refine congrArg _ (funext fun a => Fin.ext ?_)
  match a with
  | ⟨0, _⟩ => show win1_0.index t (0 : Fin 2) * 5000 + 1 * r.val = p.val; omega
  | ⟨1, _⟩ => show win1_0.index t (1 : Fin 2) * 128 + 1 * κ.val = κ.val; omega

/-- Row r of the feature block of point t is row 5000 t + r of the array. -/
theorem blk1_apply (c : Dev nD) (t : Fin cfg1.N) (r : Fin 5000) (κ : Fin 128) (p : Fin 100000) (hp : p.val = t.val * 5000 + r.val) :
    (iblk1 V c 1 t : S5000x128.Idx → EReal) (ix2 r κ) = (V c main_v23 : S100000x128.Idx → EReal) (ix2 p κ) := by
  obtain ⟨-, -, -, -, e0, e1, -⟩ := idx_facts t
  show (V c main_v23 : S100000x128.Idx → EReal) (((cfg1.win 1).blk t).view.emb (ix2 r κ)) = _
  refine congrArg _ (funext fun a => Fin.ext ?_)
  match a with
  | ⟨0, _⟩ => show win1_1.index t (0 : Fin 2) * 5000 + 1 * r.val = p.val; omega
  | ⟨1, _⟩ => show win1_1.index t (1 : Fin 2) * 128 + 1 * κ.val = κ.val; omega

/-- Row r of the inverse-degree block of point t is row 5000 t + r of the column. -/
theorem blk2_apply (c : Dev nD) (t : Fin cfg1.N) (r : Fin 5000) (p : Fin 100000) (hp : p.val = t.val * 5000 + r.val) :
    (iblk1 V c 2 t : S5000x1.Idx → EReal) (ix2 r 0) = (V c main_v12 : S100000x1.Idx → EReal) (ix2 p 0) := by
  obtain ⟨-, -, -, -, -, -, e0, e1, -⟩ := idx_facts t
  show (V c main_v12 : S100000x1.Idx → EReal) (((cfg1.win 2).blk t).view.emb (ix2 r 0)) = _
  refine congrArg _ (funext fun a => Fin.ext ?_)
  match a with
  | ⟨0, _⟩ => show win1_2.index t (0 : Fin 2) * 5000 + 1 * r.val = p.val; omega
  | ⟨1, _⟩ => show win1_2.index t (1 : Fin 2) * 1 + 1 * 0 = 0; omega

/-- The first weight matrix is staged whole. -/
theorem blk3_eq (c : Dev nD) (t : Fin cfg1.N) : (iblk1 V c 3 t : S128x128.Idx → EReal) = (V c main_arg5 : S128x128.Idx → EReal) := by
  obtain ⟨-, -, -, -, -, -, -, -, e0, e1, -⟩ := idx_facts t
  funext y
  show (V c main_arg5 : S128x128.Idx → EReal) (((cfg1.win 3).blk t).view.emb y) = _
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The second weight matrix is staged whole. -/
theorem blk4_eq (c : Dev nD) (t : Fin cfg1.N) : (iblk1 V c 4 t : S128x128.Idx → EReal) = (V c main_arg6 : S128x128.Idx → EReal) := by
  obtain ⟨-, -, -, -, -, -, -, -, -, -, e0, e1, -⟩ := idx_facts t
  funext y
  show (V c main_arg6 : S128x128.Idx → EReal) (((cfg1.win 4).blk t).view.emb y) = _
  refine congrArg _ (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- The bias is staged whole. -/
theorem blk5_eq (c : Dev nD) (t : Fin cfg1.N) : (iblk1 V c 5 t : S128.Idx → EReal) = (V c main_arg7 : S128.Idx → EReal) := by
  obtain ⟨-, -, -, -, -, -, -, -, -, -, -, -, e0, -⟩ := idx_facts t
  funext y
  show (V c main_arg7 : S128.Idx → EReal) (((cfg1.win 5).blk t).view.emb y) = _
  refine congrArg _ (funext fun a => Fin.ext ?_)
  match a with
  | ⟨0, _⟩ => show win1_5.index t (0 : Fin 1) * 128 + 1 * (y 0).val = (y 0).val; omega

/-- WHAT POINT t WRITES BACK is block t of the hidden layer of the arrays as the region finds them: entry (r, q) of
    the block depends on row r of the three row-blocked inputs, which is row 5000 t + r of their arrays, and on the
    weights and the bias, staged whole. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz2]
  simp only [View.ld_unit_zero (S := S5000x128) hz2, View.ld_unit_zero (S := S5000x1) hz2, View.ld_unit_zero (S := S128x128) hz2,
    View.ld_unit_zero (S := S128) hz1]
  obtain ⟨e0, e1, -, -, -, -, -, -, -, -, -, -, -, ht⟩ := idx_facts t
  funext j
  obtain ⟨r, q, rfl⟩ : ∃ (r : Fin 5000) (q : Fin 128), j = ix2 r q := ⟨j 0, j 1, eq_ix2 j⟩
  have hr : r.val < 5000 := r.isLt
  show (k1_pay1 (iblk1 V c 0 t) (iblk1 V c 2 t) (iblk1 V c 1 t) (iblk1 V c 3 t) (iblk1 V c 4 t) (iblk1 V c 5 t) : FVec Ideal S5000x128 .f32) (ix2 r q)
    = G V c (((cfg1.win 6).blk t).view.emb (ix2 r q))
  have hemb : ((cfg1.win 6).blk t).view.emb (ix2 r q) = ix2 (⟨t.val * 5000 + r.val, by omega⟩ : Fin 100000) q := by
    funext a; apply Fin.ext
    match a with
    | ⟨0, _⟩ => show win1_6.index t (0 : Fin 2) * 5000 + 1 * r.val = t.val * 5000 + r.val; omega
    | ⟨1, _⟩ => show win1_6.index t (1 : Fin 2) * 128 + 1 * q.val = q.val; omega
  rw [hemb]
  refine (pay_apply (iblk1 V c 0 t) (iblk1 V c 1 t) (iblk1 V c 2 t) (iblk1 V c 3 t) (iblk1 V c 4 t) (iblk1 V c 5 t) r q).trans ?_
  rw [blk3_eq, blk4_eq, blk5_eq]
  exact Cert.Sage.relu_rows _ _ _ _ _ _ _ _ _ ⟨t.val * 5000 + r.val, by omega⟩ r
    (fun κ => blk0_apply V c t r κ _ rfl) (fun κ => blk1_apply V c t r κ _ rfl) (blk2_apply V c t r _ rfl) q

/-- An index of the array is in point t's block iff each coordinate is in the block's range on its axis. -/
theorem mem_blk (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v34).slice (win1_6.rect t)).set ↔ _
  rw [View.set_slice_whole, Rect.mem_set_unit]
  exact Iff.rfl

/-- Every row lies in the block of the point (row / 5000): 20 blocks of 5000 rows tile the 100000 rows. -/
theorem cover (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  have hN : (i 0).val / 5000 < cfg1.N := Nat.lt_of_lt_of_eq (by omega) N_1.symm
  obtain ⟨e0, e1, -⟩ := idx_facts ⟨(i 0).val / 5000, hN⟩
  refine ⟨⟨(i 0).val / 5000, hN⟩, flush1_6 _, ?_⟩
  rw [mem_blk]
  intro a
  match a with
  | ⟨0, _⟩ =>
    show win1_6.index ⟨(i 0).val / 5000, hN⟩ (0 : Fin 2) * 5000 ≤ (i 0).val ∧ (i 0).val < win1_6.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win1_6.index ⟨(i 0).val / 5000, hN⟩ (1 : Fin 2) * 128 ≤ (i 1).val ∧ (i 1).val < win1_6.index ⟨(i 0).val / 5000, hN⟩ (1 : Fin 2) * 128 + 128
    rw [e1]; omega

/-- THE ARRAY after the region: the hidden layer of the arrays the region found. -/
theorem value (c : Dev nD) :
    ((dat1 V c).arrAt 6 cfg1.N : S100000x128.Idx → EReal)
      = Cert.Sage.reluLayer (V c main_v33 : S100000x128.Idx → EReal) (V c main_v23 : S100000x128.Idx → EReal) (V c main_v12 : S100000x1.Idx → EReal)
          (V c main_arg5 : S128x128.Idx → EReal) (V c main_arg6 : S128x128.Idx → EReal) (V c main_arg7 : S128.Idx → EReal) :=
  (dat1 V c).arrAt_eq_of_cover 6 (G V c) (fun t _ => flushed_eq V c t) cover

end Cert.KernelIdeal.Region1

end
-- ==== Proof.Region2.lean ====
/-
  The last layer's region. Each of the 20 grid points stages a block of 5000 rows of the neighbour sums, of the
  node features and of the inverse degrees, the two whole weight matrices and the whole bias, and writes back a block
  of 5000 rows of the output. On a block the body computes

    z (r, q)  =  ( Σ_κ (a (r, κ) · d (r, 0)) · wl (κ, q)  +  Σ_κ h (r, κ) · wr (κ, q) )  +  b q

  and then, row by row, z (r, q) − max_q' z (r, q') − log Σ_q' exp (z (r, q') − max_q' z (r, q')), the maximum taken
  from −∞ and the sum from 0. That is the last layer of the blocks; an entry of the layer depends on one row of
  a, d and h, so it is rows t · 5000 + r of the last layer of the whole arrays; the 20 blocks fill the 100000 rows,
  so the output array ends holding the last layer of the entry arrays.
-/
import proofs.«141394_j36197984370866_1_alg».proof.Proof.Gen.KernelIdeal.Frame
import proofs.«141394_j36197984370866_1_alg».proof.Proof.Spec
import proofs.«141394_j36197984370866_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

/-! ## Column forms of the layout operations -/

section Columns
variable {α : Type}

/-- A vector of length a viewed as one column [a, 1] reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- One column [a, 1] broadcast over b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## The row-wise log-softmax of a block -/

/-- The word of −∞ is the least extended real. -/
theorem ofBits_neg_inf : Ideal.ofBits .f32 0xFF800000#32 = ⊥ := by simp [Ideal.ofBits, Ideal.ieee]

/-- The largest entry of row r of a block (from −∞). -/
def blockRowMax (z : FVec Ideal S5000x40 .f32) (r : Fin 5000) : EReal :=
  (Finset.univ : Finset (Fin 40)).fold max ⊥ (fun q => z (ix2 r q))

/-- The index a reduction over axis 1 inserts coordinate k into is (r, k). -/
theorem lift_row (h : S5000x40.Reduces [1] S5000) (r : Fin 5000) (k : Fin 40) : h.lift (ix1 r) k = ix2 r k :=
  funext fun a => Fin.ext (by
    match a with
    | ⟨0, _⟩ => rfl
    | ⟨1, _⟩ => rfl)

/-- The maximum over axis 1 from the word of −∞, at row r. -/
theorem rowmax_apply (z : FVec Ideal S5000x40 .f32) (h : S5000x40.Reduces [1] S5000) (hφ : FKind.Formats .f32)
    (hacc : (0xFF800000#32 : BitVec 32) = FKind.maximumf.neutral .f32 hφ) (r : Fin 5000) :
    multiReduction (F := Ideal) .maximumf [1] S5000 z 0xFF800000#32 h hφ hacc (ix1 r) = blockRowMax z r := by
  refine (Ideal.multiReduction_maximumf_single z _ h hφ hacc (ix1 r)).trans ?_
  show (Finset.univ : Finset (Fin 40)).fold max (Ideal.ofBits .f32 0xFF800000#32) (fun k => z (h.lift (ix1 r) k)) = _
  rw [ofBits_neg_inf]
  unfold blockRowMax
  exact congrArg (fun f : Fin 40 → EReal => (Finset.univ : Finset (Fin 40)).fold max ⊥ f) (funext fun k => congrArg z (lift_row h r k))

/-- The sum over axis 1 from the zero word, at row r. -/
theorem rowsum_apply (z : FVec Ideal S5000x40 .f32) (h : S5000x40.Reduces [1] S5000) (hφ : FKind.Formats .f32)
    (hacc : (0x00000000#32 : BitVec 32) = FKind.add.neutral .f32 hφ) (r : Fin 5000) :
    multiReduction (F := Ideal) .add [1] S5000 z 0x00000000#32 h hφ hacc (ix1 r) = ∑ q : Fin 40, z (ix2 r q) := by
  refine (Ideal.multiReduction_add_single z _ h hφ hacc (ix1 r)).trans ?_
  show ∑ k : Fin 40, z (h.lift (ix1 r) k) = _
  exact Finset.sum_congr rfl fun k _ => congrArg z (lift_row h r k)

/-- The vector of row maxima, one column, spread over the 40 columns. -/
theorem bmax_apply (z : FVec Ideal S5000x40 .f32) (h : S5000x40.Reduces [1] S5000) (hφ : FKind.Formats .f32)
    (hacc : (0xFF800000#32 : BitVec 32) = FKind.maximumf.neutral .f32 hφ) (hsc : S5000.ShapeCasts S5000x1)
    (hbc : S5000x1.Broadcasts S5000x40) (r : Fin 5000) (q : Fin 40) :
    broadcastTo S5000x40 (shapeCast S5000x1 (multiReduction (F := Ideal) .maximumf [1] S5000 z 0xFF800000#32 h hφ hacc) hsc) hbc (ix2 r q)
      = blockRowMax z r :=
  (broadcastTo_a1_ab_apply _ hbc r q).trans ((shapeCast_a_a1_apply _ hsc r 0).trans (rowmax_apply z h hφ hacc r))

/-- The body's last stage on a block z: z − max z − log Σ exp (z − max z), row by row. -/
def lsmBlock (z : FVec Ideal S5000x40 .f32) (h : S5000x40.Reduces [1] S5000) (hsc : S5000.ShapeCasts S5000x1)
    (hbc : S5000x1.Broadcasts S5000x40) : FVec Ideal S5000x40 .f32 :=
  subf (subf z (broadcastTo S5000x40 (shapeCast S5000x1 (multiReduction (F := Ideal) .maximumf [1] S5000 z 0xFF800000#32 h (.inl rfl) rfl) hsc) hbc))
    (broadcastTo S5000x40 (log (shapeCast S5000x1 (multiReduction (F := Ideal) .add [1] S5000
      (exp (subf z (broadcastTo S5000x40 (shapeCast S5000x1 (multiReduction (F := Ideal) .maximumf [1] S5000 z 0xFF800000#32 h (.inl rfl) rfl) hsc) hbc)))
      0x00000000#32 h (.inl rfl) rfl) hsc)) hbc)

theorem lsmBlock_apply (z : FVec Ideal S5000x40 .f32) (h : S5000x40.Reduces [1] S5000) (hsc : S5000.ShapeCasts S5000x1)
    (hbc : S5000x1.Broadcasts S5000x40) (r : Fin 5000) (q : Fin 40) :
    lsmBlock z h hsc hbc (ix2 r q)
      = (z (ix2 r q) - blockRowMax z r) - Ideal.log (∑ q' : Fin 40, Ideal.exp (z (ix2 r q') - blockRowMax z r)) := by
  have hm : ∀ q' : Fin 40, broadcastTo S5000x40 (shapeCast S5000x1 (multiReduction (F := Ideal) .maximumf [1] S5000 z 0xFF800000#32 h (.inl rfl) rfl) hsc) hbc (ix2 r q')
      = blockRowMax z r := fun q' => bmax_apply z h _ _ hsc hbc r q'
  have hs : broadcastTo S5000x40 (log (shapeCast S5000x1 (multiReduction (F := Ideal) .add [1] S5000
      (exp (subf z (broadcastTo S5000x40 (shapeCast S5000x1 (multiReduction (F := Ideal) .maximumf [1] S5000 z 0xFF800000#32 h (.inl rfl) rfl) hsc) hbc)))
      0x00000000#32 h (.inl rfl) rfl) hsc)) hbc (ix2 r q)
      = Ideal.log (∑ q' : Fin 40, Ideal.exp (z (ix2 r q') - blockRowMax z r)) := by
    refine (broadcastTo_a1_ab_apply _ hbc r q).trans ?_
    refine congrArg Ideal.log ?_
    refine (shapeCast_a_a1_apply _ hsc r 0).trans ?_
    refine (rowsum_apply _ h _ _ r).trans ?_
    refine Finset.sum_congr rfl fun q' _ => ?_
    exact congrArg Ideal.exp (congrArg (fun m => z (ix2 r q') - m) (hm q'))
  unfold lsmBlock
  exact congrArg₂ (fun a b : EReal => a - b) (congrArg (fun m => z (ix2 r q) - m) (hm q)) hs

/-! ## The pre-activation of a block -/

/-- The product record of the two matrix products is a plain [5000, 128] · [128, 40]. -/
theorem dot_plain : Cert.PlainDot.Plain (a := 5000) (k := 128) (b := 40) dot_S5000x128_S128x40_S5000x40_1_0_0_1_n_n :=
  ⟨rfl, rfl, rfl, rfl, rfl, rfl⟩

/-- The block of pre-activations as the body computes it: the neighbour sums scaled by the inverse degree times the
    first weights, plus the features times the second weights, plus the bias on every row. -/
def preBlock (x0 x1 : Vec Ideal S5000x128 .f32) (x2 : Vec Ideal S5000x1 .f32) (x3 x4 : Vec Ideal S128x40 .f32) (x5 : Vec Ideal S40 .f32)
    (hc1 : S5000x128.ShapeCasts S5000x128) (hc2 : S5000x1.ShapeCasts S5000x1) (hb : S5000x1.Broadcasts S5000x128)
    (hlt : FTy.bits .bf16 < FTy.bits .f32) (hc3 : S40.ShapeCasts S1x40) (hb3 : S1x40.Broadcasts S5000x40) : FVec Ideal S5000x40 .f32 :=
  addf (addf
      (matmul dot_S5000x128_S128x40_S5000x40_1_0_0_1_n_n none
        (truncf .bf16 (mulf (shapeCast S5000x128 x0 hc1) (broadcastTo S5000x128 (shapeCast S5000x1 x2 hc2) hb)) hlt)
        (truncf .bf16 x3 hlt) (constant (F := Ideal) S5000x40 .f32 0x00000000#32))
      (matmul dot_S5000x128_S128x40_S5000x40_1_0_0_1_n_n none
        (truncf .bf16 (shapeCast S5000x128 x1 hc1) hlt) (truncf .bf16 x4 hlt) (constant (F := Ideal) S5000x40 .f32 0x00000000#32)))
    (broadcastTo S5000x40 (shapeCast S1x40 x5 hc3) hb3)

theorem preBlock_apply (x0 x1 : Vec Ideal S5000x128 .f32) (x2 : Vec Ideal S5000x1 .f32) (x3 x4 : Vec Ideal S128x40 .f32) (x5 : Vec Ideal S40 .f32)
    (hc1 : S5000x128.ShapeCasts S5000x128) (hc2 : S5000x1.ShapeCasts S5000x1) (hb : S5000x1.Broadcasts S5000x128)
    (hlt : FTy.bits .bf16 < FTy.bits .f32) (hc3 : S40.ShapeCasts S1x40) (hb3 : S1x40.Broadcasts S5000x40) (r : Fin 5000) (q : Fin 40) :
    preBlock x0 x1 x2 x3 x4 x5 hc1 hc2 hb hlt hc3 hb3 (ix2 r q) = Cert.Sage.pre (R := 5000) (M := 40) x0 x1 x2 x3 x4 x5 r q := by
  have e1 : matmul dot_S5000x128_S128x40_S5000x40_1_0_0_1_n_n none
        (truncf .bf16 (mulf (shapeCast S5000x128 x0 hc1) (broadcastTo S5000x128 (shapeCast S5000x1 x2 hc2) hb)) hlt)
        (truncf .bf16 x3 hlt) (constant (F := Ideal) S5000x40 .f32 0x00000000#32) (ix2 r q)
      = ∑ κ : Fin 128, (x0 (ix2 r κ) * x2 (ix2 r 0)) * x3 (ix2 κ q) := by
    refine (Cert.PlainDot.matmul_zero_apply dot_plain rfl rfl none _ _ r q).trans ?_
    refine Finset.sum_congr rfl fun κ _ => ?_
    show (shapeCast S5000x128 x0 hc1 (ix2 r κ) * broadcastTo S5000x128 (shapeCast S5000x1 x2 hc2) hb (ix2 r κ)) * x3 (ix2 κ q) = _
    rw [shapeCast_self x0 hc1, broadcastTo_a1_ab_apply _ hb r κ, shapeCast_self x2 hc2]
  have e2 : matmul dot_S5000x128_S128x40_S5000x40_1_0_0_1_n_n none
        (truncf .bf16 (shapeCast S5000x128 x1 hc1) hlt) (truncf .bf16 x4 hlt) (constant (F := Ideal) S5000x40 .f32 0x00000000#32) (ix2 r q)
      = ∑ κ : Fin 128, x1 (ix2 r κ) * x4 (ix2 κ q) := by
    refine (Cert.PlainDot.matmul_zero_apply dot_plain rfl rfl none _ _ r q).trans ?_
    refine Finset.sum_congr rfl fun κ _ => ?_
    show shapeCast S5000x128 x1 hc1 (ix2 r κ) * x4 (ix2 κ q) = _
    rw [shapeCast_self x1 hc1]
  have e3 : broadcastTo S5000x40 (shapeCast S1x40 x5 hc3) hb3 (ix2 r q) = x5 (ix1 q) :=
    (broadcastTo_1b_ab_apply _ hb3 r q).trans (shapeCast_a_1a_apply x5 hc3 0 q)
  unfold preBlock Cert.Sage.pre
  exact congrArg₂ (fun a b : EReal => a + b) (congrArg₂ (fun a b : EReal => a + b) e1 e2) e3

/-! ## The body's payload at an index -/

/-- The body's arithmetic is the last stage on the block of pre-activations. -/
theorem pay_eq (x0 x1 : Vec Ideal S5000x128 .f32) (x2 : Vec Ideal S5000x1 .f32) (x3 x4 : Vec Ideal S128x40 .f32) (x5 : Vec Ideal S40 .f32) :
    k2_pay1 (F := Ideal) x0 x2 x1 x3 x4 x5
      = lsmBlock (preBlock x0 x1 x2 x3 x4 x5 Facts₀.shapeCasts_S5000x128_S5000x128 Facts₀.shapeCasts_S5000x1_S5000x1
          Facts₀.broadcasts_S5000x1_S5000x128 Facts₀.bitsLt_bf16_f32 Facts₀.shapeCasts_S40_S1x40 Facts₀.broadcasts_S1x40_S5000x40)
        Facts₀.reduces_S5000x40_S5000 Facts₀.shapeCasts_S5000_S5000x1 Facts₀.broadcasts_S5000x1_S5000x40 := rfl

/-- The payload of blocks of 5000 rows is the last layer of those blocks. -/
theorem pay_apply (x0 x1 : Vec Ideal S5000x128 .f32) (x2 : Vec Ideal S5000x1 .f32) (x3 x4 : Vec Ideal S128x40 .f32) (x5 : Vec Ideal S40 .f32)
    (r : Fin 5000) (q : Fin 40) :
    k2_pay1 (F := Ideal) x0 x2 x1 x3 x4 x5 (ix2 r q) = Cert.Sage.lsmLayer (R := 5000) (M := 40) x0 x1 x2 x3 x4 x5 (ix2 r q) := by
  refine (congrFun (pay_eq x0 x1 x2 x3 x4 x5) (ix2 r q)).trans ?_
  refine (lsmBlock_apply _ _ _ _ r q).trans ?_
  have hz : ∀ q' : Fin 40, preBlock x0 x1 x2 x3 x4 x5 Facts₀.shapeCasts_S5000x128_S5000x128 Facts₀.shapeCasts_S5000x1_S5000x1
          Facts₀.broadcasts_S5000x1_S5000x128 Facts₀.bitsLt_bf16_f32 Facts₀.shapeCasts_S40_S1x40 Facts₀.broadcasts_S1x40_S5000x40 (ix2 r q')
        = Cert.Sage.pre (R := 5000) (M := 40) x0 x1 x2 x3 x4 x5 r q' := fun q' => preBlock_apply x0 x1 x2 x3 x4 x5 _ _ _ _ _ _ r q'
  have hmx : blockRowMax (preBlock x0 x1 x2 x3 x4 x5 Facts₀.shapeCasts_S5000x128_S5000x128 Facts₀.shapeCasts_S5000x1_S5000x1
          Facts₀.broadcasts_S5000x1_S5000x128 Facts₀.bitsLt_bf16_f32 Facts₀.shapeCasts_S40_S1x40 Facts₀.broadcasts_S1x40_S5000x40) r
        = Cert.Sage.rowMax (R := 5000) (M := 40) x0 x1 x2 x3 x4 x5 r := by
    unfold blockRowMax Cert.Sage.rowMax
    exact congrArg (fun f : Fin 40 → EReal => (Finset.univ : Finset (Fin 40)).fold max ⊥ f) (funext hz)
  show _ = (Cert.Sage.pre (R := 5000) (M := 40) x0 x1 x2 x3 x4 x5 r q - Cert.Sage.rowMax (R := 5000) (M := 40) x0 x1 x2 x3 x4 x5 r)
    - Ideal.log (∑ q' : Fin 40, Ideal.exp (Cert.Sage.pre (R := 5000) (M := 40) x0 x1 x2 x3 x4 x5 r q' - Cert.Sage.rowMax (R := 5000) (M := 40) x0 x1 x2 x3 x4 x5 r))
  rw [hmx]
  simp only [hz]

/-! ## From the blocks to the array -/

/-- Rows n·5000 + r of the arrays being rows r of the blocks (and the weights and the bias whole), the payload of the
    blocks is the last layer of the arrays at those rows. -/
theorem pay_block (A H : S100000x128.Idx → EReal) (D : S100000x1.Idx → EReal) (Wl Wr : S128x40.Idx → EReal) (B : S40.Idx → EReal)
    (x0 x1 : Vec Ideal S5000x128 .f32) (x2 : Vec Ideal S5000x1 .f32) (x3 x4 : Vec Ideal S128x40 .f32) (x5 : Vec Ideal S40 .f32)
    (n : ℕ) (hn : n < 20)
    (h0 : ∀ (r : Fin 5000) (κ : Fin 128), x0 (ix2 r κ) = A (ix2 (⟨n * 5000 + r.val, by have := r.isLt; omega⟩ : Fin 100000) κ))
    (h1 : ∀ (r : Fin 5000) (κ : Fin 128), x1 (ix2 r κ) = H (ix2 (⟨n * 5000 + r.val, by have := r.isLt; omega⟩ : Fin 100000) κ))
    (h2 : ∀ (r : Fin 5000), x2 (ix2 r 0) = D (ix2 (⟨n * 5000 + r.val, by have := r.isLt; omega⟩ : Fin 100000) 0))
    (h3 : x3 = Wl) (h4 : x4 = Wr) (h5 : x5 = B) :
    (k2_pay1 (F := Ideal) x0 x2 x1 x3 x4 x5 : S5000x40.Idx → EReal)
      = fun j => Cert.Sage.lsmLayer (R := 100000) (M := 40) A H D Wl Wr B
          (ix2 (⟨n * 5000 + (j 0).val, by have h : (j 0).val < 5000 := (j 0).isLt; omega⟩ : Fin 100000) (j 1)) := by
  subst h3 h4 h5
  funext j
  obtain ⟨r, q, rfl⟩ : ∃ (r : Fin 5000) (q : Fin 40), j = ix2 r q := ⟨j 0, j 1, eq_ix2 j⟩
  refine (pay_apply x0 x1 x2 x3 x4 x5 r q).trans ?_
  exact Cert.Sage.lsm_rows A H D x0 x1 x2 x3 x4 x5 ⟨n * 5000 + r.val, by have := r.isLt; omega⟩ r (h0 r) (h1 r) (h2 r) q

variable (V : (c : Dev nD) → (b : Ref sig .tc) → Buf (Elt Ideal) ((c : Thread nD τ).loc b))

theorem off2 : (![0, 0] : Fin 2 → Nat) = fun _ => 0 := funext fun a => by fin_cases a <;> rfl
theorem off1 : (![0] : Fin 1 → Nat) = fun _ => 0 := funext fun a => by fin_cases a; rfl

/-- The entry arrays, at their literal types. -/
abbrev arrA (c : Dev nD) : S100000x128.Idx → EReal := V c main_v44
abbrev arrH (c : Dev nD) : S100000x128.Idx → EReal := V c main_v34
abbrev arrD (c : Dev nD) : S100000x1.Idx → EReal := V c main_v12
abbrev arrWl (c : Dev nD) : S128x40.Idx → EReal := V c main_arg8
abbrev arrWr (c : Dev nD) : S128x40.Idx → EReal := V c main_arg9
abbrev arrB (c : Dev nD) : S40.Idx → EReal := V c main_arg10

/-- The last layer of the entry arrays: what the output array ends holding. -/
abbrev layer (c : Dev nD) : S100000x40.Idx → EReal :=
  Cert.Sage.lsmLayer (R := 100000) (M := 40) (arrA V c) (arrH V c) (arrD V c) (arrWl V c) (arrWr V c) (arrB V c)

/-- The index maps over the grid: the three row-blocked inputs move with the output along the rows, point t at
    block t; every other block index is 0. -/
theorem idx_facts : ∀ t : Fin cfg2.N, win2_6.index t (0 : Fin 2) = t.val ∧ win2_6.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 1) = 0 :=
  (by decide +kernel : ∀ t : Fin grid2.N, _)

/-- What point t writes back is block t of the last layer of the entry arrays. -/
theorem flushed_eq (c : Dev nD) (t : Fin cfg2.N) :
    (dat2 V c).flushed 6 t = ((cfg2.win 6).blk t).view.read (Elt Ideal) (layer V c) := by
  show (cfg2.win 6).cut (grid2.coords t) ((dat2 V c).after 6 t) = _
  rw [after2_6]
  unfold out2_6
  rw [View.canon_unit_zero off2]
  simp only [View.ld_unit_zero (S := S5000x128) off2, View.ld_unit_zero (S := S5000x1) off2, View.ld_unit_zero (S := S128x40) off2,
    View.ld_unit_zero (S := S40) off1]
  obtain ⟨e60, e61, e00, e01, e10, e11, e20, e21, e30, e31, e40, e41, e50⟩ := idx_facts t
  have ht : t.val < 20 := lt_of_lt_of_eq t.isLt N_2
  show (k2_pay1 (F := Ideal) (iblk2 V c 0 t) (iblk2 V c 2 t) (iblk2 V c 1 t) (iblk2 V c 3 t) (iblk2 V c 4 t) (iblk2 V c 5 t) : S5000x40.Idx → EReal) = _
  refine (pay_block (arrA V c) (arrH V c) (arrD V c) (arrWl V c) (arrWr V c) (arrB V c)
    (iblk2 V c 0 t) (iblk2 V c 1 t) (iblk2 V c 2 t) (iblk2 V c 3 t) (iblk2 V c 4 t) (iblk2 V c 5 t) t.val ht ?_ ?_ ?_ ?_ ?_ ?_).trans ?_
  · intro r κ
    show arrA V c (((cfg2.win 0).blk t).view.emb (ix2 r κ)) = arrA V c _
    refine congrArg (arrA V c) (funext fun a => Fin.ext ?_)
    match a with
    | ⟨0, _⟩ => show win2_0.index t (0 : Fin 2) * 5000 + 1 * r.val = t.val * 5000 + r.val; omega
    | ⟨1, _⟩ => show win2_0.index t (1 : Fin 2) * 128 + 1 * κ.val = κ.val; omega
  · intro r κ
    show arrH V c (((cfg2.win 1).blk t).view.emb (ix2 r κ)) = arrH V c _
    refine congrArg (arrH V c) (funext fun a => Fin.ext ?_)
    match a with
    | ⟨0, _⟩ => show win2_1.index t (0 : Fin 2) * 5000 + 1 * r.val = t.val * 5000 + r.val; omega
    | ⟨1, _⟩ => show win2_1.index t (1 : Fin 2) * 128 + 1 * κ.val = κ.val; omega
  · intro r
    show arrD V c (((cfg2.win 2).blk t).view.emb (ix2 r (0 : Fin 1))) = arrD V c _
    refine congrArg (arrD V c) (funext fun a => Fin.ext ?_)
    match a with
    | ⟨0, _⟩ => show win2_2.index t (0 : Fin 2) * 5000 + 1 * r.val = t.val * 5000 + r.val; omega
    | ⟨1, _⟩ => show win2_2.index t (1 : Fin 2) * 1 + 1 * 0 = 0; omega
  · funext y
    show arrWl V c (((cfg2.win 3).blk t).view.emb y) = arrWl V c y
    refine congrArg (arrWl V c) (funext fun a => Fin.ext ?_)
    match a with
    | ⟨0, _⟩ => show win2_3.index t (0 : Fin 2) * 128 + 1 * (y 0).val = (y 0).val; omega
    | ⟨1, _⟩ => show win2_3.index t (1 : Fin 2) * 40 + 1 * (y 1).val = (y 1).val; omega
  · funext y
    show arrWr V c (((cfg2.win 4).blk t).view.emb y) = arrWr V c y
    refine congrArg (arrWr V c) (funext fun a => Fin.ext ?_)
    match a with
    | ⟨0, _⟩ => show win2_4.index t (0 : Fin 2) * 128 + 1 * (y 0).val = (y 0).val; omega
    | ⟨1, _⟩ => show win2_4.index t (1 : Fin 2) * 40 + 1 * (y 1).val = (y 1).val; omega
  · funext y
    show arrB V c (((cfg2.win 5).blk t).view.emb y) = arrB V c y
    refine congrArg (arrB V c) (funext fun a => Fin.ext ?_)
    match a with
    | ⟨0, _⟩ => show win2_5.index t (0 : Fin 1) * 40 + 1 * (y 0).val = (y 0).val; omega
  · funext j
    show layer V c _ = layer V c (((cfg2.win 6).blk t).view.emb j)
    refine congrArg (layer V c) (funext fun a => Fin.ext ?_)
    match a with
    | ⟨0, _⟩ => show t.val * 5000 + (j 0).val = win2_6.index t (0 : Fin 2) * 5000 + 1 * (j 0).val; omega
    | ⟨1, _⟩ => show (j 1).val = win2_6.index t (1 : Fin 2) * 40 + 1 * (j 1).val; omega

/-- An index of the output array lies in point t's block iff each coordinate lies in the block's range on its axis. -/
theorem mem_blk (t : Fin cfg2.N) (i : S100000x40.Idx) :
    i ∈ ((cfg2.win 6).blk t).view.set ↔ ∀ a : Fin 2, win2_6.index t a * S5000x40.size a ≤ (i a).val ∧ (i a).val < win2_6.index t a * S5000x40.size a + S5000x40.size a := by
  show i ∈ ((View.whole main_v45).slice (win2_6.rect t)).set ↔ _
  rw [View.set_slice_whole, Rect.mem_set_unit]
  exact Iff.rfl

/-- Row p of the output lies in the block of point p / 5000: the 20 blocks of 5000 rows fill the 100000 rows. -/
theorem cover (i : S100000x40.Idx) : ∃ t : Fin cfg2.N, (cfg2.win 6).flush t = true ∧ i ∈ ((cfg2.win 6).blk t).view.set := by
  have hi0 : (i 0).val < 100000 := (i 0).isLt
  have hi1 : (i 1).val < 40 := (i 1).isLt
  obtain ⟨t, htv⟩ : ∃ t : Fin cfg2.N, t.val = (i 0).val / 5000 :=
    ⟨⟨(i 0).val / 5000, lt_of_lt_of_eq (by omega : (i 0).val / 5000 < 20) N_2.symm⟩, rfl⟩
  obtain ⟨e60, e61, -⟩ := idx_facts t
  refine ⟨t, flush2_6 t, ?_⟩
  rw [mem_blk]
  intro a
  match a with
  | ⟨0, _⟩ =>
    show win2_6.index t (0 : Fin 2) * 5000 ≤ (i 0).val ∧ (i 0).val < win2_6.index t (0 : Fin 2) * 5000 + 5000
    omega
  | ⟨1, _⟩ =>
    show win2_6.index t (1 : Fin 2) * 40 ≤ (i 1).val ∧ (i 1).val < win2_6.index t (1 : Fin 2) * 40 + 40
    omega

/-- The output array after the region: the last layer of the entry arrays. -/
theorem value (c : Dev nD) :
    ((dat2 V c).arrAt 6 cfg2.N : S100000x40.Idx → EReal)
      = Cert.Sage.lsmLayer (V c main_v44 : S100000x128.Idx → EReal) (V c main_v34 : S100000x128.Idx → EReal) (V c main_v12 : S100000x1.Idx → EReal)
          (V c main_arg8 : S128x40.Idx → EReal) (V c main_arg9 : S128x40.Idx → EReal) (V c main_arg10 : S40.Idx → EReal) :=
  (dat2 V c).arrAt_eq_of_cover 6 (layer V c) (fun t _ => flushed_eq V c t) cover

end Cert.KernelIdeal.Region2

end
-- ==== Proof.KernelValue.lean ====
/-
  The kernel program's result as one function of its arguments.

  With s, d the source and destination ids of the edge list, δ the inverse degree, and agg the neighbour sum,

      h₁ = relu-layer (agg x, x, δ, W_l0, W_r0, b0)
      h₂ = relu-layer (agg h₁, h₁, δ, W_l1, W_r1, b1)
      out = log-softmax-layer (agg h₂, h₂, δ, W_l2, W_r2, b2)

  Each kernel's output array is its layer of the arrays it is launched on; the host operations between the kernels
  compute the next neighbour sum and leave everything else a later kernel reads as it was.
-/
import proofs.«141394_j36197984370866_1_alg».proof.Proof.Glue
import proofs.«141394_j36197984370866_1_alg».proof.Proof.Region0
import proofs.«141394_j36197984370866_1_alg».proof.Proof.Region1
import proofs.«141394_j36197984370866_1_alg».proof.Proof.Region2
import proofs.«141394_j36197984370866_1_alg».proof.Proof.KernelRun

set_option maxRecDepth 16384

noncomputable section

open Idealize.ShloMosaic Idealize.ShloMosaic.TcCoe Idealize.SL.Sem

namespace Cert.KernelIdeal.Result

open Cert.KernelIdeal Cert.KernelIdeal.Gen Cert.KernelIdeal.Glue

variable (m : (ℓ : Loc nD τ sig) → Buf (Elt Ideal) ℓ) (ρ : Dev nD → PrngReg)

/-- The first hidden layer's output. -/
def h1 (c : Dev nD) : S100000x128.Idx → EReal :=
  Cert.Sage.reluLayer (aggOf (srcIds (m ((c : Thread nD τ).loc main_arg1))) (dstIds (m ((c : Thread nD τ).loc main_arg1))) (m ((c : Thread nD τ).loc main_arg0))) (m ((c : Thread nD τ).loc main_arg0)) (invDeg (m ((c : Thread nD τ).loc main_arg1))) (m ((c : Thread nD τ).loc main_arg2)) (m ((c : Thread nD τ).loc main_arg3)) (m ((c : Thread nD τ).loc main_arg4))

/-- The second hidden layer's output. -/
def h2 (c : Dev nD) : S100000x128.Idx → EReal :=
  Cert.Sage.reluLayer (aggOf (srcIds (m ((c : Thread nD τ).loc main_arg1))) (dstIds (m ((c : Thread nD τ).loc main_arg1))) (h1 m c)) (h1 m c) (invDeg (m ((c : Thread nD τ).loc main_arg1))) (m ((c : Thread nD τ).loc main_arg5)) (m ((c : Thread nD τ).loc main_arg6)) (m ((c : Thread nD τ).loc main_arg7))

/-- The program's result. -/
def out (c : Dev nD) : S100000x40.Idx → EReal :=
  Cert.Sage.lsmLayer (aggOf (srcIds (m ((c : Thread nD τ).loc main_arg1))) (dstIds (m ((c : Thread nD τ).loc main_arg1))) (h2 m c)) (h2 m c) (invDeg (m ((c : Thread nD τ).loc main_arg1))) (m ((c : Thread nD τ).loc main_arg8)) (m ((c : Thread nD τ).loc main_arg9)) (m ((c : Thread nD τ).loc main_arg10))

/-- The first kernel writes the first hidden layer. -/
theorem res0 (c : Dev nD) : (dat0 (V1 m ρ) c).arrAt 6 cfg0.N = h1 m c := by
  rw [Region0.value (V1 m ρ) c, in0_agg m ρ c, in0_arg0 m ρ c, in0_deg m ρ c, in0_arg2 m ρ c, in0_arg3 m ρ c, in0_arg4 m ρ c]
  rfl

/-- The second kernel writes the second hidden layer. -/
theorem res1 (c : Dev nD) : (dat1 (V3 m ρ) c).arrAt 6 cfg1.N = h2 m c := by
  rw [Region1.value (V3 m ρ) c, in1_agg m ρ c, in1_feat m ρ c, in1_deg m ρ c, in1_arg5 m ρ c, in1_arg6 m ρ c, in1_arg7 m ρ c, res0 m ρ c]
  rfl

/-- The third kernel writes the result. -/
theorem res2 (c : Dev nD) : (dat2 (V5 m ρ) c).arrAt 6 cfg2.N = out m c := by
  rw [Region2.value (V5 m ρ) c, in2_agg m ρ c, in2_feat m ρ c, in2_deg m ρ c, in2_arg8 m ρ c, in2_arg9 m ρ c, in2_arg10 m ρ c, res1 m ρ c]
  rfl

/-- The run of the kernel program: the result array ends at `out`, the arguments as launched. -/
theorem run : θ_run defs (onTc (τ := τ) (main (F := Ideal))) ⟨m, fun _ => 0, ρ⟩ (fun r => ∀ c : Dev nD,
      r.2.mem ((c.tc : Thread nD τ).loc main_v45) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans ((out2_res m ρ c).trans (res2 m ρ c)), (h c).2⟩)
    (Cert.KernelIdeal.GenRun.run_result (F := Ideal) m ρ)

end Cert.KernelIdeal.Result

end
-- ==== Proof.RefOps.lean ====
import proofs.«141394_j36197984370866_1_alg».proof.Proof.RefRun

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- Operations 1 … 17 of @main. -/
abbrev ops0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x3F800000#32),
    unary main_cst main_v4 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (maximumf : (⟨S100000, .f32⟩ : BufTy).Contents (Elt F) → (⟨S100000, .f32⟩ : BufTy).Contents (Elt F) → (⟨S100000, .f32⟩ : BufTy).Contents (Elt F)),
    nullary main_cst_2 (constant S_ .f32 0x3F800000#32),
    unary main_cst_2 main_v10 (broadcastInDim S100000 ![] bcast_S_S100000 : (⟨S_, .f32⟩ : BufTy).Contents (Elt F) → (⟨S100000, .f32⟩ : BufTy).Contents (Elt F)),
    binary main_v10 main_v9 main_v11 (Host.divf : (⟨S100000, .f32⟩ : BufTy).Contents (Elt F) → (⟨S100000, .f32⟩ : BufTy).Contents (Elt F) → (⟨S100000, .f32⟩ : BufTy).Contents (Elt F)),
    unary main_v11 main_v12 (broadcastInDim S100000x1 ![0] bcast_S100000_S100000x1_0 : (⟨S100000, .f32⟩ : BufTy).Contents (Elt F) → (⟨S100000x1, .f32⟩ : BufTy).Contents (Elt F)) ]

/-- Operations 18 … 41 of @main. -/
abbrev ops1 : List (HloOp τ sig (Elt F)) :=
  [ nullary main_c (constantI S_ 32 0#32),
    unary main_c main_v13 (broadcastInDim S1600000 ![] bcast_S_S1600000 : (⟨S_, .i32⟩ : BufTy).Contents (Elt F) → (⟨S1600000, .i32⟩ : BufTy).Contents (Elt F)),
    binary main_v1 main_v13 main_v14 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 100000#32),
    unary main_c_3 main_v15 (broadcastInDim S1600000 ![] bcast_S_S1600000 : (⟨S_, .i32⟩ : BufTy).Contents (Elt F) → (⟨S1600000, .i32⟩ : BufTy).Contents (Elt F)),
    binary main_v1 main_v15 main_v16 (addi : (⟨S1600000, .i32⟩ : BufTy).Contents (Elt F) → (⟨S1600000, .i32⟩ : BufTy).Contents (Elt F) → (⟨S1600000, .i32⟩ : BufTy).Contents (Elt F)),
    ternary main_v14 main_v16 main_v1 main_v17 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v17 main_v18 (broadcastInDim S1600000x1 ![0] bcast_S1600000_S1600000x1_0 : (⟨S1600000, .i32⟩ : BufTy).Contents (Elt F) → (⟨S1600000x1, .i32⟩ : BufTy).Contents (Elt F)),
    binary main_arg0 main_v18 main_v19 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_4 (constant S_ .f32 0x00000000#32),
    unary main_cst_4 main_v20 (broadcastInDim S100000x128 ![] bcast_S_S100000x128 : (⟨S_, .f32⟩ : BufTy).Contents (Elt F) → (⟨S100000x128, .f32⟩ : BufTy).Contents (Elt F)),
    unary main_v3 main_v21 (broadcastInDim S1600000x1 ![0] bcast_S1600000_S1600000x1_0 : (⟨S1600000, .i32⟩ : BufTy).Contents (Elt F) → (⟨S1600000x1, .i32⟩ : BufTy).Contents (Elt F)),
    ternary main_v20 main_v21 main_v19 main_v22 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v12 main_v23 (broadcastInDim S100000x128 ![0, 1] bcast_S100000x1_S100000x128_0_1 : (⟨S100000x1, .f32⟩ : BufTy).Contents (Elt F) → (⟨S100000x128, .f32⟩ : BufTy).Contents (Elt F)),
    binary main_v22 main_v23 main_v24 (mulf : (⟨S100000x128, .f32⟩ : BufTy).Contents (Elt F) → (⟨S100000x128, .f32⟩ : BufTy).Contents (Elt F) → (⟨S100000x128, .f32⟩ : BufTy).Contents (Elt F)),
    binary main_v24 main_arg2 main_v25 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v26 (broadcastInDim S1x128 ![1] bcast_S128_S1x128_1 : (⟨S128, .f32⟩ : BufTy).Contents (Elt F) → (⟨S1x128, .f32⟩ : BufTy).Contents (Elt F)),
    unary main_v26 main_v27 (broadcastInDim S100000x128 ![0, 1] bcast_S1x128_S100000x128_0_1 : (⟨S1x128, .f32⟩ : BufTy).Contents (Elt F) → (⟨S100000x128, .f32⟩ : BufTy).Contents (Elt F)),
    binary main_v25 main_v27 main_v28 (addf : (⟨S100000x128, .f32⟩ : BufTy).Contents (Elt F) → (⟨S100000x128, .f32⟩ : BufTy).Contents (Elt F) → (⟨S100000x128, .f32⟩ : BufTy).Contents (Elt F)),
    binary main_arg0 main_arg3 main_v29 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v28 main_v29 main_v30 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v30) (TRef.of (T := ⟨S100000x128, .f32⟩) main_call0_v0) (TRef.of (T := ⟨S100000x128, .f32⟩) main_v31) maximumf ]

/-- Operations 42 … 65 of @main. -/
abbrev ops2 : List (HloOp τ sig (Elt F)) :=
  [ nullary main_c_5 (constantI S_ 32 0#32),
    unary main_c_5 main_v32 (broadcastInDim S1600000 ![] bcast_S_S1600000 : (⟨S_, .i32⟩ : BufTy).Contents (Elt F) → (⟨S1600000, .i32⟩ : BufTy).Contents (Elt F)),
    binary main_v1 main_v32 main_v33 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v34 (broadcastInDim S1600000 ![] bcast_S_S1600000 : (⟨S_, .i32⟩ : BufTy).Contents (Elt F) → (⟨S1600000, .i32⟩ : BufTy).Contents (Elt F)),
    binary main_v1 main_v34 main_v35 (addi : (⟨S1600000, .i32⟩ : BufTy).Contents (Elt F) → (⟨S1600000, .i32⟩ : BufTy).Contents (Elt F) → (⟨S1600000, .i32⟩ : BufTy).Contents (Elt F)),
    ternary main_v33 main_v35 main_v1 main_v36 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v36 main_v37 (broadcastInDim S1600000x1 ![0] bcast_S1600000_S1600000x1_0 : (⟨S1600000, .i32⟩ : BufTy).Contents (Elt F) → (⟨S1600000x1, .i32⟩ : BufTy).Contents (Elt F)),
    binary main_v31 main_v37 main_v38 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_7 (constant S_ .f32 0x00000000#32),
    unary main_cst_7 main_v39 (broadcastInDim S100000x128 ![] bcast_S_S100000x128 : (⟨S_, .f32⟩ : BufTy).Contents (Elt F) → (⟨S100000x128, .f32⟩ : BufTy).Contents (Elt F)),
    unary main_v3 main_v40 (broadcastInDim S1600000x1 ![0] bcast_S1600000_S1600000x1_0 : (⟨S1600000, .i32⟩ : BufTy).Contents (Elt F) → (⟨S1600000x1, .i32⟩ : BufTy).Contents (Elt F)),
    ternary main_v39 main_v40 main_v38 main_v41 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v12 main_v42 (broadcastInDim S100000x128 ![0, 1] bcast_S100000x1_S100000x128_0_1 : (⟨S100000x1, .f32⟩ : BufTy).Contents (Elt F) → (⟨S100000x128, .f32⟩ : BufTy).Contents (Elt F)),
    binary main_v41 main_v42 main_v43 (mulf : (⟨S100000x128, .f32⟩ : BufTy).Contents (Elt F) → (⟨S100000x128, .f32⟩ : BufTy).Contents (Elt F) → (⟨S100000x128, .f32⟩ : BufTy).Contents (Elt F)),
    binary main_v43 main_arg5 main_v44 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg7 main_v45 (broadcastInDim S1x128 ![1] bcast_S128_S1x128_1 : (⟨S128, .f32⟩ : BufTy).Contents (Elt F) → (⟨S1x128, .f32⟩ : BufTy).Contents (Elt F)),
    unary main_v45 main_v46 (broadcastInDim S100000x128 ![0, 1] bcast_S1x128_S100000x128_0_1 : (⟨S1x128, .f32⟩ : BufTy).Contents (Elt F) → (⟨S100000x128, .f32⟩ : BufTy).Contents (Elt F)),
    binary main_v44 main_v46 main_v47 (addf : (⟨S100000x128, .f32⟩ : BufTy).Contents (Elt F) → (⟨S100000x128, .f32⟩ : BufTy).Contents (Elt F) → (⟨S100000x128, .f32⟩ : BufTy).Contents (Elt F)),
    binary main_v31 main_arg6 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v47 main_v48 main_v49 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v49) (TRef.of (T := ⟨S100000x128, .f32⟩) main_call1_v0) (TRef.of (T := ⟨S100000x128, .f32⟩) main_v50) maximumf ]

/-- Operations 66 … 86 of @main. -/
abbrev ops3 : List (HloOp τ sig (Elt F)) :=
  [ nullary main_c_8 (constantI S_ 32 0#32),
    unary main_c_8 main_v51 (broadcastInDim S1600000 ![] bcast_S_S1600000 : (⟨S_, .i32⟩ : BufTy).Contents (Elt F) → (⟨S1600000, .i32⟩ : BufTy).Contents (Elt F)),
    binary main_v1 main_v51 main_v52 (cmpi .slt : (⟨S1600000, .i32⟩ : BufTy).Contents (Elt F) → (⟨S1600000, .i32⟩ : BufTy).Contents (Elt F) → (⟨S1600000, .i1⟩ : BufTy).Contents (Elt F)),
    nullary main_c_9 (constantI S_ 32 100000#32),
    unary main_c_9 main_v53 (broadcastInDim S1600000 ![] bcast_S_S1600000 : (⟨S_, .i32⟩ : BufTy).Contents (Elt F) → (⟨S1600000, .i32⟩ : BufTy).Contents (Elt F)),
    binary main_v1 main_v53 main_v54 (addi : (⟨S1600000, .i32⟩ : BufTy).Contents (Elt F) → (⟨S1600000, .i32⟩ : BufTy).Contents (Elt F) → (⟨S1600000, .i32⟩ : BufTy).Contents (Elt F)),
    ternary main_v52 main_v54 main_v1 main_v55 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v55 main_v56 (broadcastInDim S1600000x1 ![0] bcast_S1600000_S1600000x1_0 : (⟨S1600000, .i32⟩ : BufTy).Contents (Elt F) → (⟨S1600000x1, .i32⟩ : BufTy).Contents (Elt F)),
    binary main_v50 main_v56 main_v57 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_10 (constant S_ .f32 0x00000000#32),
    unary main_cst_10 main_v58 (broadcastInDim S100000x128 ![] bcast_S_S100000x128 : (⟨S_, .f32⟩ : BufTy).Contents (Elt F) → (⟨S100000x128, .f32⟩ : BufTy).Contents (Elt F)),
    unary main_v3 main_v59 (broadcastInDim S1600000x1 ![0] bcast_S1600000_S1600000x1_0 : (⟨S1600000, .i32⟩ : BufTy).Contents (Elt F) → (⟨S1600000x1, .i32⟩ : BufTy).Contents (Elt F)),
    ternary main_v58 main_v59 main_v57 main_v60 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v12 main_v61 (broadcastInDim S100000x128 ![0, 1] bcast_S100000x1_S100000x128_0_1 : (⟨S100000x1, .f32⟩ : BufTy).Contents (Elt F) → (⟨S100000x128, .f32⟩ : BufTy).Contents (Elt F)),
    binary main_v60 main_v61 main_v62 (mulf : (⟨S100000x128, .f32⟩ : BufTy).Contents (Elt F) → (⟨S100000x128, .f32⟩ : BufTy).Contents (Elt F) → (⟨S100000x128, .f32⟩ : BufTy).Contents (Elt F)),
    binary main_v62 main_arg8 main_v63 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    unary main_arg10 main_v64 (broadcastInDim S1x40 ![1] bcast_S40_S1x40_1 : (⟨S40, .f32⟩ : BufTy).Contents (Elt F) → (⟨S1x40, .f32⟩ : BufTy).Contents (Elt F)),
    unary main_v64 main_v65 (broadcastInDim S100000x40 ![0, 1] bcast_S1x40_S100000x40_0_1 : (⟨S1x40, .f32⟩ : BufTy).Contents (Elt F) → (⟨S100000x40, .f32⟩ : BufTy).Contents (Elt F)),
    binary main_v63 main_v65 main_v66 (addf : (⟨S100000x40, .f32⟩ : BufTy).Contents (Elt F) → (⟨S100000x40, .f32⟩ : BufTy).Contents (Elt F) → (⟨S100000x40, .f32⟩ : BufTy).Contents (Elt F)),
    binary main_v50 main_arg9 main_v67 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    binary main_v66 main_v67 main_v68 (addf : (⟨S100000x40, .f32⟩ : BufTy).Contents (Elt F) → (⟨S100000x40, .f32⟩ : BufTy).Contents (Elt F) → (⟨S100000x40, .f32⟩ : BufTy).Contents (Elt F)) ]

/-- Operations 87 … 101 of @main. -/
abbrev ops4 : List (HloOp τ sig (Elt F)) :=
  [ TRef.nullary (TRef.of (T := ⟨S_, .f32⟩) main_call2_cst) (constant S_ .f32 0xFF800000#32),
    TRef.binary (TRef.of (T := ⟨S100000x40, .f32⟩) main_v68) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v68) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v69) subf ]

set_option maxRecDepth 8192 in
set_option maxHeartbeats 4000000 in
theorem ops_split : (ops : List (HloOp τ sig (Elt F))) = ops0 ++ (ops1 ++ (ops2 ++ (ops3 ++ (ops4)))) := rfl

end Cert.ReferenceIdeal.ValueP

end
-- ==== Proof.RefDefs.lean ====
/-
  The reference program's host operations, grouped: the ids of an edge's two ends, the neighbour sum, the inverse
  degree, and the dense part of a layer

      max ( ((a · d) W_l + b) + h W_r , 0 )          (hidden layers)
      log-softmax ( ((a · d) W_l + b) + h W_r )      (last layer)

  each written with the very operations the program applies, in its order.
-/
import proofs.«141394_j36197984370866_1_alg».proof.Proof.Gen.ReferenceIdeal
import Idealize.ShloMosaic.PureOps.Ideal

noncomputable section

open Idealize.ShloMosaic

namespace Cert.ReferenceIdeal.HostFn

open Cert.ReferenceIdeal Cert.ReferenceIdeal.Gen

variable {F : FTy → Type} [FloatOps F]

/-- Row 0 of the edge list: the source ids. -/
def srcIds (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- Row 1 of the edge list: the destination ids. -/
def dstIds (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The neighbour sum of `h` along edges `s → d`: gather the source rows (a negative id counted from the end), add each
    into its destination row, from zeros. -/
def aggOf (s d : (⟨S1600000, .i32⟩ : BufTy).Contents (Elt F)) (h : (⟨S100000x128, .f32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 d)
    (Host.gather gather_S100000x128_S1600000x1_S1600000x128_1_0_n_n_0_1_1128 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- 1 / max (in-degree, 1), as a vector over the nodes. -/
def invDegVec (d : (⟨S1600000, .i32⟩ : BufTy).Contents (Elt F)) : (⟨S100000, .f32⟩ : BufTy).Contents (Elt F) :=
  Host.divf (broadcastInDim S100000 ![] bcast_S_S100000 (constant S_ .f32 0x3F800000#32))
    (maximumf
      (Host.scatterAdd scatter_S100000_S1600000x1_S1600000_n_0_0_1
        (broadcastInDim S100000 ![] bcast_S_S100000 (constant S_ .f32 0x00000000#32))
        (broadcastInDim S1600000x1 ![0] bcast_S1600000_S1600000x1_0 d)
        (broadcastInDim S1600000 ![] bcast_S_S1600000 (constant S_ .f32 0x3F800000#32)))
      (broadcastInDim S100000 ![] bcast_S_S100000 (constant S_ .f32 0x3F800000#32)))

/-- The inverse degree as one column. -/
def invDeg (e : (⟨S2x1600000, .i32⟩ : BufTy).Contents (Elt F)) : (⟨S100000x1, .f32⟩ : BufTy).Contents (Elt F) :=
  broadcastInDim S100000x1 ![0] bcast_S100000_S100000x1_0 (invDegVec (dstIds e))

/-- The pre-activation of a hidden layer: ((a · d) W_l + b) + h W_r. -/
def dense128 (a h : (⟨S100000x128, .f32⟩ : BufTy).Contents (Elt F)) (dv : (⟨S100000x1, .f32⟩ : BufTy).Contents (Elt F))
    (wl wr : (⟨S128x128, .f32⟩ : BufTy).Contents (Elt F)) (b : (⟨S128, .f32⟩ : BufTy).Contents (Elt F)) :
    (⟨S100000x128, .f32⟩ : BufTy).Contents (Elt F) :=
  addf
    (addf
      (Host.dotGeneral dot_S100000x128_S128x128_S100000x128_1_0_0_1_n_n none
        (mulf a (broadcastInDim S100000x128 ![0, 1] bcast_S100000x1_S100000x128_0_1 dv)) wl)
      (broadcastInDim S100000x128 ![0, 1] bcast_S1x128_S100000x128_0_1 (broadcastInDim S1x128 ![1] bcast_S128_S1x128_1 b)))
    (Host.dotGeneral dot_S100000x128_S128x128_S100000x128_1_0_0_1_n_n none h wr)

/-- A hidden layer's dense part: the pre-activation clipped below at zero. -/
def denseRelu (a h : (⟨S100000x128, .f32⟩ : BufTy).Contents (Elt F)) (dv : (⟨S100000x1, .f32⟩ : BufTy).Contents (Elt F))
    (wl wr : (⟨S128x128, .f32⟩ : BufTy).Contents (Elt F)) (b : (⟨S128, .f32⟩ : BufTy).Contents (Elt F)) :
    (⟨S100000x128, .f32⟩ : BufTy).Contents (Elt F) :=
  maximumf (dense128 a h dv wl wr b) (broadcastInDim S100000x128 ![] bcast_S_S100000x128 (constant S_ .f32 0x00000000#32))

/-- The pre-activation of the last layer (40 outputs). -/
def dense40 (a h : (⟨S100000x128, .f32⟩ : BufTy).Contents (Elt F)) (dv : (⟨S100000x1, .f32⟩ : BufTy).Contents (Elt F))
    (wl wr : (⟨S128x40, .f32⟩ : BufTy).Contents (Elt F)) (b : (⟨S40, .f32⟩ : BufTy).Contents (Elt F)) :
    (⟨S100000x40, .f32⟩ : BufTy).Contents (Elt F) :=
  addf
    (addf
      (Host.dotGeneral dot_S100000x128_S128x40_S100000x40_1_0_0_1_n_n none
        (mulf a (broadcastInDim S100000x128 ![0, 1] bcast_S100000x1_S100000x128_0_1 dv)) wl)
      (broadcastInDim S100000x40 ![0, 1] bcast_S1x40_S100000x40_0_1 (broadcastInDim S1x40 ![1] bcast_S40_S1x40_1 b)))
    (Host.dotGeneral dot_S100000x128_S128x40_S100000x40_1_0_0_1_n_n none h wr)

/-- The row-wise log-softmax as the program computes it: the row maximum (from −∞, and once more against −∞), the
    shifted row, its exponentials summed from zero, the logarithm, the difference. -/
def logSoftmax (z : (⟨S100000x40, .f32⟩ : BufTy).Contents (Elt F)) : (⟨S100000x40, .f32⟩ : BufTy).Contents (Elt F) :=
  subf
    (subf z
      (broadcastInDim S100000x40 ![0, 1] bcast_S100000x1_S100000x40_0_1
        (broadcastInDim S100000x1 ![0] bcast_S100000_S100000x1_0
          (maximumf (broadcastInDim S100000 ![] bcast_S_S100000 (constant S_ .f32 0xFF800000#32))
            (Host.reduce FloatOps.maximumf z (constant S_ .f32 0xFF800000#32) reducesTo_S100000x40_S100000_d1 h_S_)))))
    (broadcastInDim S100000x40 ![0, 1] bcast_S100000x1_S100000x40_0_1
      (Host.log
        (broadcastInDim S100000x1 ![0] bcast_S100000_S100000x1_0
          (Host.reduceAdd
            (Host.exp
              (subf z
                (broadcastInDim S100000x40 ![0, 1] bcast_S100000x1_S100000x40_0_1
                  (broadcastInDim S100000x1 ![0] bcast_S100000_S100000x1_0
                    (maximumf (broadcastInDim S100000 ![] bcast_S_S100000 (constant S_ .f32 0xFF800000#32))
                      (Host.reduce FloatOps.maximumf z (constant S_ .f32 0xFF800000#32) reducesTo_S100000x40_S100000_d1 h_S_))))))
            (constant S_ .f32 0x00000000#32) reducesTo_S100000x40_S100000_d1 h_S_))))

/-- The last layer's dense part. -/
def denseLsm (a h : (⟨S100000x128, .f32⟩ : BufTy).Contents (Elt F)) (dv : (⟨S100000x1, .f32⟩ : BufTy).Contents (Elt F))
    (wl wr : (⟨S128x40, .f32⟩ : BufTy).Contents (Elt F)) (b : (⟨S40, .f32⟩ : BufTy).Contents (Elt F)) :
    (⟨S100000x40, .f32⟩ : BufTy).Contents (Elt F) :=
  logSoftmax (dense40 a h dv wl wr b)

end Cert.ReferenceIdeal.HostFn

end
-- ==== Proof.RefFold.lean ====
/-
  The reference program's result as one function of its arguments, read off its run five stretches of operations at
  a time: the ids and the inverse degree; the first hidden layer; the second; the last layer's pre-activation; its
  log-softmax.  After each stretch the buffers a later stretch reads hold the functions of RefDefs.lean of the
  arguments: the neighbour sum is taken of the previous layer's output, everything else is carried unchanged.
-/
import proofs.«141394_j36197984370866_1_alg».proof.Proof.RefOps
import proofs.«141394_j36197984370866_1_alg».proof.Proof.RefDefs
import Idealize.ShloMosaic.Lib.Pipeline.Frame

set_option maxRecDepth 16384

noncomputable section

open Idealize.ShloMosaic Idealize.ShloMosaic.TcCoe Idealize.SL.Sem Idealize.ShloMosaic.StableHlo

namespace Cert.ReferenceIdeal.Fold

open Cert.ReferenceIdeal Cert.ReferenceIdeal.Gen Cert.ReferenceIdeal.ValueP Cert.ReferenceIdeal.HostFn

variable {F : FTy → Type} [FloatOps F]
variable (m : (ℓ : Loc nD τ sig) → Buf (Elt F) ℓ)

/-- The buffers after the first stretch (ids, inverse degree), … after the fifth (the whole program). -/
def U1 (c : Dev nD) : Valuation τ sig (Elt F) := after ops0 (launchContents m c)
def U2 (c : Dev nD) : Valuation τ sig (Elt F) := after ops1 (U1 m c)
def U3 (c : Dev nD) : Valuation τ sig (Elt F) := after ops2 (U2 m c)
def U4 (c : Dev nD) : Valuation τ sig (Elt F) := after ops3 (U3 m c)
def U5 (c : Dev nD) : Valuation τ sig (Elt F) := after ops4 (U4 m c)

theorem fold_eq (c : Dev nD) : after ops (launchContents m c) = U5 m c := by
  rw [ops_split, StableHlo.after_append, StableHlo.after_append, StableHlo.after_append, StableHlo.after_append]
  rfl

/-! ## After the first stretch -/

theorem u1_src (c : Dev nD) : U1 m c (Proc.devRef .tc main_v1) = srcIds (m ((c.tc : Thread nD τ).loc main_arg1)) := by
  unfold U1; after_results; rfl
theorem u1_dst (c : Dev nD) : U1 m c (Proc.devRef .tc main_v3) = dstIds (m ((c.tc : Thread nD τ).loc main_arg1)) := by
  unfold U1; after_results; rfl
theorem u1_deg (c : Dev nD) : U1 m c (Proc.devRef .tc main_v12) = invDeg (m ((c.tc : Thread nD τ).loc main_arg1)) := by
  unfold U1; after_results; rfl
theorem u1_arg0 (c : Dev nD) : U1 m c (Proc.devRef .tc main_arg0) = (m ((c.tc : Thread nD τ).loc main_arg0)) := by
  unfold U1; after_results; try rfl
theorem u1_arg2 (c : Dev nD) : U1 m c (Proc.devRef .tc main_arg2) = (m ((c.tc : Thread nD τ).loc main_arg2)) := by
  unfold U1; after_results; try rfl
theorem u1_arg3 (c : Dev nD) : U1 m c (Proc.devRef .tc main_arg3) = (m ((c.tc : Thread nD τ).loc main_arg3)) := by
  unfold U1; after_results; try rfl
theorem u1_arg4 (c : Dev nD) : U1 m c (Proc.devRef .tc main_arg4) = (m ((c.tc : Thread nD τ).loc main_arg4)) := by
  unfold U1; after_results; try rfl
theorem u1_arg5 (c : Dev nD) : U1 m c (Proc.devRef .tc main_arg5) = (m ((c.tc : Thread nD τ).loc main_arg5)) := by
  unfold U1; after_results; try rfl
theorem u1_arg6 (c : Dev nD) : U1 m c (Proc.devRef .tc main_arg6) = (m ((c.tc : Thread nD τ).loc main_arg6)) := by
  unfold U1; after_results; try rfl
theorem u1_arg7 (c : Dev nD) : U1 m c (Proc.devRef .tc main_arg7) = (m ((c.tc : Thread nD τ).loc main_arg7)) := by
  unfold U1; after_results; try rfl
theorem u1_arg8 (c : Dev nD) : U1 m c (Proc.devRef .tc main_arg8) = (m ((c.tc : Thread nD τ).loc main_arg8)) := by
  unfold U1; after_results; try rfl
theorem u1_arg9 (c : Dev nD) : U1 m c (Proc.devRef .tc main_arg9) = (m ((c.tc : Thread nD τ).loc main_arg9)) := by
  unfold U1; after_results; try rfl
theorem u1_arg10 (c : Dev nD) : U1 m c (Proc.devRef .tc main_arg10) = (m ((c.tc : Thread nD τ).loc main_arg10)) := by
  unfold U1; after_results; try rfl

/-! ## After the second stretch: the first hidden layer -/

/-- The first hidden layer's output. -/
def r1 (c : Dev nD) : (⟨S100000x128, .f32⟩ : BufTy).Contents (Elt F) :=
  denseRelu (aggOf (srcIds (m ((c.tc : Thread nD τ).loc main_arg1))) (dstIds (m ((c.tc : Thread nD τ).loc main_arg1))) (m ((c.tc : Thread nD τ).loc main_arg0))) (m ((c.tc : Thread nD τ).loc main_arg0)) (invDeg (m ((c.tc : Thread nD τ).loc main_arg1))) (m ((c.tc : Thread nD τ).loc main_arg2)) (m ((c.tc : Thread nD τ).loc main_arg3)) (m ((c.tc : Thread nD τ).loc main_arg4))

set_option maxHeartbeats 2000000 in
theorem u2_out (c : Dev nD) : U2 m c (Proc.devRef .tc main_v31) = r1 m c := by
  unfold U2; after_results_simp
  rw [u1_src m c, u1_dst m c, u1_deg m c, u1_arg0 m c, u1_arg2 m c, u1_arg3 m c, u1_arg4 m c]; rfl
theorem u2_src (c : Dev nD) : U2 m c (Proc.devRef .tc main_v1) = srcIds (m ((c.tc : Thread nD τ).loc main_arg1)) := by
  unfold U2; after_results; exact u1_src m c
theorem u2_dst (c : Dev nD) : U2 m c (Proc.devRef .tc main_v3) = dstIds (m ((c.tc : Thread nD τ).loc main_arg1)) := by
  unfold U2; after_results; exact u1_dst m c
theorem u2_deg (c : Dev nD) : U2 m c (Proc.devRef .tc main_v12) = invDeg (m ((c.tc : Thread nD τ).loc main_arg1)) := by
  unfold U2; after_results; exact u1_deg m c
theorem u2_arg5 (c : Dev nD) : U2 m c (Proc.devRef .tc main_arg5) = (m ((c.tc : Thread nD τ).loc main_arg5)) := by
  unfold U2; after_results; exact u1_arg5 m c
theorem u2_arg6 (c : Dev nD) : U2 m c (Proc.devRef .tc main_arg6) = (m ((c.tc : Thread nD τ).loc main_arg6)) := by
  unfold U2; after_results; exact u1_arg6 m c
theorem u2_arg7 (c : Dev nD) : U2 m c (Proc.devRef .tc main_arg7) = (m ((c.tc : Thread nD τ).loc main_arg7)) := by
  unfold U2; after_results; exact u1_arg7 m c
theorem u2_arg8 (c : Dev nD) : U2 m c (Proc.devRef .tc main_arg8) = (m ((c.tc : Thread nD τ).loc main_arg8)) := by
  unfold U2; after_results; exact u1_arg8 m c
theorem u2_arg9 (c : Dev nD) : U2 m c (Proc.devRef .tc main_arg9) = (m ((c.tc : Thread nD τ).loc main_arg9)) := by
  unfold U2; after_results; exact u1_arg9 m c
theorem u2_arg10 (c : Dev nD) : U2 m c (Proc.devRef .tc main_arg10) = (m ((c.tc : Thread nD τ).loc main_arg10)) := by
  unfold U2; after_results; exact u1_arg10 m c

/-! ## After the third stretch: the second hidden layer -/

/-- The second hidden layer's output. -/
def r2 (c : Dev nD) : (⟨S100000x128, .f32⟩ : BufTy).Contents (Elt F) :=
  denseRelu (aggOf (srcIds (m ((c.tc : Thread nD τ).loc main_arg1))) (dstIds (m ((c.tc : Thread nD τ).loc main_arg1))) (r1 m c)) (r1 m c) (invDeg (m ((c.tc : Thread nD τ).loc main_arg1))) (m ((c.tc : Thread nD τ).loc main_arg5)) (m ((c.tc : Thread nD τ).loc main_arg6)) (m ((c.tc : Thread nD τ).loc main_arg7))

set_option maxHeartbeats 2000000 in
theorem u3_out (c : Dev nD) : U3 m c (Proc.devRef .tc main_v50) = r2 m c := by
  unfold U3; after_results_simp
  rw [u2_src m c, u2_dst m c, u2_deg m c, u2_out m c, u2_arg5 m c, u2_arg6 m c, u2_arg7 m c]; rfl
theorem u3_src (c : Dev nD) : U3 m c (Proc.devRef .tc main_v1) = srcIds (m ((c.tc : Thread nD τ).loc main_arg1)) := by
  unfold U3; after_results; exact u2_src m c
theorem u3_dst (c : Dev nD) : U3 m c (Proc.devRef .tc main_v3) = dstIds (m ((c.tc : Thread nD τ).loc main_arg1)) := by
  unfold U3; after_results; exact u2_dst m c
theorem u3_deg (c : Dev nD) : U3 m c (Proc.devRef .tc main_v12) = invDeg (m ((c.tc : Thread nD τ).loc main_arg1)) := by
  unfold U3; after_results; exact u2_deg m c
theorem u3_arg8 (c : Dev nD) : U3 m c (Proc.devRef .tc main_arg8) = (m ((c.tc : Thread nD τ).loc main_arg8)) := by
  unfold U3; after_results; exact u2_arg8 m c
theorem u3_arg9 (c : Dev nD) : U3 m c (Proc.devRef .tc main_arg9) = (m ((c.tc : Thread nD τ).loc main_arg9)) := by
  unfold U3; after_results; exact u2_arg9 m c
theorem u3_arg10 (c : Dev nD) : U3 m c (Proc.devRef .tc main_arg10) = (m ((c.tc : Thread nD τ).loc main_arg10)) := by
  unfold U3; after_results; exact u2_arg10 m c

/-! ## After the fourth stretch: the last layer's pre-activation; after the fifth: its log-softmax -/

set_option maxHeartbeats 2000000 in
theorem u4_pre (c : Dev nD) : U4 m c (Proc.devRef .tc main_v68)
    = dense40 (aggOf (srcIds (m ((c.tc : Thread nD τ).loc main_arg1))) (dstIds (m ((c.tc : Thread nD τ).loc main_arg1))) (r2 m c)) (r2 m c) (invDeg (m ((c.tc : Thread nD τ).loc main_arg1))) (m ((c.tc : Thread nD τ).loc main_arg8)) (m ((c.tc : Thread nD τ).loc main_arg9)) (m ((c.tc : Thread nD τ).loc main_arg10)) := by
  unfold U4; after_results_simp
  rw [u3_src m c, u3_dst m c, u3_deg m c, u3_out m c, u3_arg8 m c, u3_arg9 m c, u3_arg10 m c]; rfl

/-- The program's result. -/
def res (c : Dev nD) : (⟨S100000x40, .f32⟩ : BufTy).Contents (Elt F) :=
  denseLsm (aggOf (srcIds (m ((c.tc : Thread nD τ).loc main_arg1))) (dstIds (m ((c.tc : Thread nD τ).loc main_arg1))) (r2 m c)) (r2 m c) (invDeg (m ((c.tc : Thread nD τ).loc main_arg1))) (m ((c.tc : Thread nD τ).loc main_arg8)) (m ((c.tc : Thread nD τ).loc main_arg9)) (m ((c.tc : Thread nD τ).loc main_arg10))

/-- Contents moved to a typed reference's buffer and back are the contents. -/
theorem ofBuf_toBuf {T : BufTy} (x : TRef sig T) (v : T.Contents (Elt F)) : x.ofBuf (x.toBuf v) = v := by
  obtain ⟨r, h, h1, h2⟩ := x
  subst h
  rfl

theorem ofBuf_v68 (y : (⟨S100000x40, .f32⟩ : BufTy).Contents (Elt F)) :
    (TRef.of (T := ⟨S100000x40, .f32⟩) main_v68).ofBuf (Val := Elt F) y = y := rfl

theorem toBuf_v69 (y : (⟨S100000x40, .f32⟩ : BufTy).Contents (Elt F)) :
    (TRef.of (T := ⟨S100000x40, .f32⟩) main_v69).toBuf (Val := Elt F) y = y := rfl

set_option maxHeartbeats 2000000 in
/-- The fifth stretch, from any contents: the result buffer ends at the log-softmax of the pre-activation's buffer.
    (The row maximum and the row sum stay folded: the two sides are the same operations of the same operands.) -/
theorem lsm_fold (W : Valuation τ sig (Elt F)) :
    after ops4 W (Proc.devRef .tc main_v69) = logSoftmax (W (Proc.devRef .tc main_v68)) := by
  after_results_simp
  simp only [ofBuf_toBuf, ofBuf_v68, toBuf_v69]
  rfl

theorem u5_res (c : Dev nD) : U5 m c (Proc.devRef .tc main_v69) = res m c := by
  unfold U5 res denseLsm
  rw [lsm_fold, u4_pre m c]

/-- The fold of the whole program at the result buffer. -/
theorem result_eq (c : Dev nD) : after ops (launchContents m c) (Proc.devRef .tc main_v69) = res m c := by
  rw [fold_eq m c]; exact u5_res m c

end Cert.ReferenceIdeal.Fold

end
-- ==== Proof.RefRelu.lean ====
/-
  The reference's hidden layer, read entry by entry: at (p, q) its two host matrix products are the exact sums over
  the 128 contraction positions, the inverse degree's column broadcast over the features reads row p, the bias
  broadcast over the rows reads position q, and the zero constant reads 0. The reference adds the bias before the
  second product and the specification after it; addition of extended reals is commutative and associative, so the
  two agree.
-/
import proofs.«141394_j36197984370866_1_alg».proof.Proof.RefDefs
import proofs.«141394_j36197984370866_1_alg».proof.Proof.Spec
import proofs.«141394_j36197984370866_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.ReferenceIdeal.RefRelu

open Cert.ReferenceIdeal Cert.ReferenceIdeal.Gen Cert.ReferenceIdeal.HostFn

/-- The product's dimension numbers are those of a plain matrix product. -/
theorem dot_plain : Cert.PlainDot.Plain dot_S100000x128_S128x128_S100000x128_1_0_0_1_n_n := ⟨rfl, rfl, rfl, rfl, rfl, rfl⟩

/-- The inverse degree's column broadcast over the 128 features reads, at (p, κ), the column at row p. -/
theorem col_apply (dv : (⟨S100000x1, .f32⟩ : BufTy).Contents (Elt Ideal)) (p : Fin 100000) (κ : Fin 128) :
    (broadcastInDim S100000x128 ![0, 1] bcast_S100000x1_S100000x128_0_1 dv : S100000x128.Idx → EReal) (ix2 p κ)
      = (dv (ix2 p 0) : EReal) := by
  refine broadcastInDim_apply _ _ dv (ix2 p κ) (ix2 p 0) fun ax => ?_
  match ax with
  | ⟨0, _⟩ => show p.val = if (100000 : ℕ) = 1 then 0 else p.val; exact (if_neg (by decide)).symm
  | ⟨1, _⟩ => show (0 : ℕ) = if (1 : ℕ) = 1 then 0 else κ.val; exact (if_pos rfl).symm

/-- The left operand of the first product at (p, κ): the neighbour sum scaled by the row's inverse degree. -/
theorem lhs_apply (a : (⟨S100000x128, .f32⟩ : BufTy).Contents (Elt Ideal)) (dv : (⟨S100000x1, .f32⟩ : BufTy).Contents (Elt Ideal))
    (p : Fin 100000) (κ : Fin 128) :
    (mulf a (broadcastInDim S100000x128 ![0, 1] bcast_S100000x1_S100000x128_0_1 dv) : FVec Ideal S100000x128 .f32) (ix2 p κ)
      = (a (ix2 p κ) : EReal) * (dv (ix2 p 0) : EReal) :=
  congrArg (fun z : EReal => (a (ix2 p κ) : EReal) * z) (col_apply dv p κ)

/-- The bias [128] broadcast to [1, 128] and then over the rows reads, at (p, q), the bias at q. -/
theorem bias_apply (b : (⟨S128, .f32⟩ : BufTy).Contents (Elt Ideal)) (p : Fin 100000) (q : Fin 128) :
    (broadcastInDim S100000x128 ![0, 1] bcast_S1x128_S100000x128_0_1 (broadcastInDim S1x128 ![1] bcast_S128_S1x128_1 b) : S100000x128.Idx → EReal) (ix2 p q)
      = (b (ix1 q) : EReal) := by
  refine (broadcastInDim_apply _ _ _ (ix2 p q) (ix2 (0 : Fin 1) q) fun ax => ?_).trans
    (broadcastInDim_apply _ _ b (ix2 (0 : Fin 1) q) (ix1 q) fun ax => ?_)
  · match ax with
    | ⟨0, _⟩ => show (0 : ℕ) = if (1 : ℕ) = 1 then 0 else p.val; exact (if_pos rfl).symm
    | ⟨1, _⟩ => show q.val = if (128 : ℕ) = 1 then 0 else q.val; exact (if_neg (by decide)).symm
  · match ax with
    | ⟨0, _⟩ => show q.val = if (128 : ℕ) = 1 then 0 else q.val; exact (if_neg (by decide)).symm

/-- The zero constant broadcast over the array reads 0 everywhere. -/
theorem zero_apply (j : S100000x128.Idx) :
    (broadcastInDim S100000x128 ![] bcast_S_S100000x128 (constant (F := Ideal) S_ .f32 0x00000000#32) : S100000x128.Idx → EReal) j = 0 :=
  (broadcastInDim_apply _ _ (constant (F := Ideal) S_ .f32 0x00000000#32) j ix0 fun ax => ax.elim0).trans Ideal.ofBits_zero_f32

/-- The reference's hidden layer is the specification's, for all operands. -/
theorem denseRelu_eq (a h : (⟨S100000x128, .f32⟩ : BufTy).Contents (Elt Ideal)) (dv : (⟨S100000x1, .f32⟩ : BufTy).Contents (Elt Ideal))
    (wl wr : (⟨S128x128, .f32⟩ : BufTy).Contents (Elt Ideal)) (b : (⟨S128, .f32⟩ : BufTy).Contents (Elt Ideal)) :
    denseRelu (F := Ideal) a h dv wl wr b = Cert.Sage.reluLayer a h dv wl wr b := by
  funext j
  obtain ⟨p, q, rfl⟩ : ∃ (p : Fin 100000) (q : Fin 128), j = ix2 p q := ⟨j 0, j 1, eq_ix2 j⟩
  unfold denseRelu dense128
  show max ((Host.dotGeneral (F := Ideal) dot_S100000x128_S128x128_S100000x128_1_0_0_1_n_n none _ wl (ix2 p q)
        + (broadcastInDim S100000x128 ![0, 1] bcast_S1x128_S100000x128_0_1 (broadcastInDim S1x128 ![1] bcast_S128_S1x128_1 b) : S100000x128.Idx → EReal) (ix2 p q))
        + Host.dotGeneral (F := Ideal) dot_S100000x128_S128x128_S100000x128_1_0_0_1_n_n none h wr (ix2 p q))
      ((broadcastInDim S100000x128 ![] bcast_S_S100000x128 (constant (F := Ideal) S_ .f32 0x00000000#32) : S100000x128.Idx → EReal) (ix2 p q))
    = max (Cert.Sage.pre a h dv wl wr b p q) 0
  rw [Cert.PlainDot.dotGeneral_apply dot_plain rfl rfl, Cert.PlainDot.dotGeneral_apply dot_plain rfl rfl, bias_apply, zero_apply,
    Cert.Sage.add_bias_comm]
  unfold Cert.Sage.pre
  refine congrArg (fun s : EReal => max (s + (∑ κ : Fin 128, (h (ix2 p κ) : EReal) * (wr (ix2 κ q) : EReal)) + (b (ix1 q) : EReal)) 0) ?_
  exact Finset.sum_congr rfl fun κ _ => congrArg (fun z : EReal => z * (wl (ix2 κ q) : EReal)) (lhs_apply a dv p κ)

end Cert.ReferenceIdeal.RefRelu

end
-- ==== Proof.RefLsm.lean ====
/-
  The reference's last layer, read entry by entry. On the pre-activation z (the first product, then the bias, then the
  second product) the program takes, row by row, the maximum from −∞ (and once more against −∞), subtracts it,
  sums the exponentials from zero, and subtracts the logarithm of the sum:

      z (p, q) − max_q' z (p, q') − log Σ_q' exp (z (p, q') − max_q' z (p, q')).

  A maximum over one axis is the fold of max over that axis's coordinates, max (−∞, m) = m, a sum from zero is the
  sum, and the bias moves past the second product since addition of extended reals is commutative and associative:
  that is the specification's last layer of the same operands.
-/
import proofs.«141394_j36197984370866_1_alg».proof.Proof.RefDefs
import proofs.«141394_j36197984370866_1_alg».proof.Proof.Spec
import proofs.«141394_j36197984370866_1_alg».proof.Proof.LibPlainDot
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

open Idealize.ShloMosaic Idealize.ShloMosaic.ValueIdx

namespace Cert.ReferenceIdeal.RefLsm

open Cert.ReferenceIdeal Cert.ReferenceIdeal.Gen Cert.ReferenceIdeal.HostFn

/-! ## Broadcasts along named axes, read at an index -/

section Broadcasts
variable {α : Type}

/-- One column [a, 1] spread over b columns reads, at (p, c), the column at (p, 0). -/
theorem bcast_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length a laid as one column [a, 1] reads, at (p, u), the vector at p. -/
theorem bcast_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector of length b laid as one row [1, b] reads, at (u, c), the vector at c. -/
theorem bcast_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- One row [1, b] spread over a rows reads, at (p, c), the row at (0, c). -/
theorem bcast_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

end Broadcasts

/-! ## The two row reductions -/

/-- The word of −∞ is the least extended real. -/
theorem ofBits_neg_inf : Ideal.ofBits .f32 0xFF800000#32 = ⊥ := by simp [Ideal.ofBits, Ideal.ieee]

/-- Removing axis 1 of a [100000, 40] array leaves its 100000 rows. -/
theorem reduces_rows : S100000x40.Reduces [1] S100000 := by decide

/-- The index a reduction over axis 1 inserts coordinate k into is (p, k). -/
theorem lift_row (h : S100000x40.Reduces [1] S100000) (p : Fin 100000) (k : Fin 40) : h.lift (ix1 p) k = ix2 p k :=
  funext fun a => Fin.ext (by
    match a with
    | ⟨0, _⟩ => rfl
    | ⟨1, _⟩ => rfl)

/-- The maximum over axis 1 from −∞, at row p: the fold of max over the row's 40 entries. -/
theorem rowmax_apply (z : FVec Ideal S100000x40 .f32) (h' : S100000x40.ReducesTo [1] S100000) (hu : 0 < S_.numel) (p : Fin 100000) :
    Host.reduce (FloatOps.maximumf (F := Ideal) (φ := .f32)) z (constant (F := Ideal) S_ .f32 0xFF800000#32) h' hu (ix1 p)
      = (Finset.univ : Finset (Fin 40)).fold max ⊥ (fun q => z (ix2 p q)) := by
  refine (Host.reduce_eq_fold_single (FloatOps.maximumf (F := Ideal) (φ := .f32)) z _ h' reduces_rows hu (ix1 p)).trans ?_
  show (Finset.univ : Finset (Fin 40)).fold max (Ideal.ofBits .f32 0xFF800000#32) (fun k => z (reduces_rows.lift (ix1 p) k)) = _
  rw [ofBits_neg_inf]
  exact congrArg (fun f : Fin 40 → EReal => (Finset.univ : Finset (Fin 40)).fold max ⊥ f) (funext fun k => congrArg z (lift_row _ p k))

/-- The sum over axis 1 from zero, at row p: the sum of the row's 40 entries. -/
theorem rowsum_apply (z : FVec Ideal S100000x40 .f32) (h' : S100000x40.ReducesTo [1] S100000) (hu : 0 < S_.numel) (p : Fin 100000) :
    Host.reduceAdd z (constant (F := Ideal) S_ .f32 0x00000000#32) h' hu (ix1 p) = ∑ q : Fin 40, z (ix2 p q) := by
  refine (hostReduceAdd_apply z _ h' hu (ix1 p)).trans ?_
  refine (Ideal.hostReduceAdd_single h' reduces_rows z _ (ix1 p)).trans ?_
  show Ideal.ofBits .f32 0x00000000#32 + ∑ k : Fin 40, z (reduces_rows.lift (ix1 p) k) = _
  rw [Ideal.ofBits_zero_f32, zero_add]
  exact Finset.sum_congr rfl fun k _ => congrArg z (lift_row _ p k)

/-! ## The row-wise log-softmax -/

/-- The largest entry of row p (from −∞). -/
def rowMaxOf (z : FVec Ideal S100000x40 .f32) (p : Fin 100000) : EReal :=
  (Finset.univ : Finset (Fin 40)).fold max ⊥ (fun q => z (ix2 p q))

/-- The row maxima, taken once more against −∞, as one column spread over the 40 columns. -/
theorem bmax_apply (z : FVec Ideal S100000x40 .f32) (hb2 : S100000x1.BroadcastsInDim S100000x40 (![0, 1] : Fin 2 → Fin S100000x40.rank))
    (hb1 : S100000.BroadcastsInDim S100000x1 (![0] : Fin 1 → Fin S100000x1.rank))
    (hb0 : S_.BroadcastsInDim S100000 (![] : Fin 0 → Fin S100000.rank))
    (h' : S100000x40.ReducesTo [1] S100000) (hu : 0 < S_.numel) (p : Fin 100000) (q : Fin 40) :
    (broadcastInDim S100000x40 ![0, 1] hb2 (broadcastInDim S100000x1 ![0] hb1 (maximumf (broadcastInDim S100000 ![] hb0 (constant (F := Ideal) S_ .f32 0xFF800000#32)) (Host.reduce (FloatOps.maximumf (F := Ideal) (φ := .f32)) z (constant (F := Ideal) S_ .f32 0xFF800000#32) h' hu)))) (ix2 p q) = rowMaxOf z p := by
  refine (bcast_a1_ab_apply _ hb2 p q).trans ?_
  refine (bcast_a_a1_apply _ hb1 p 0).trans ?_
  refine (maximumf_apply _ _ (ix1 p)).trans ?_
  refine (congrArg₂ (fun x y : Ideal .f32 => max x y) ((broadcastInDim_scalar_apply hb0 _ (ix1 p)).trans ((constant_apply _ ix0).trans ofBits_neg_inf))
    (rowmax_apply z h' hu p)).trans ?_
  exact max_eq_right bot_le

/-- The host's exponential and logarithm at an index are the ideal ones of the entry. -/
theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl

/-- The reference's last stage on an array z: z − max z − log Σ exp (z − max z), row by row. -/
def lsmRef (z : FVec Ideal S100000x40 .f32) (hb2 : S100000x1.BroadcastsInDim S100000x40 (![0, 1] : Fin 2 → Fin S100000x40.rank))
    (hb1 : S100000.BroadcastsInDim S100000x1 (![0] : Fin 1 → Fin S100000x1.rank))
    (hb0 : S_.BroadcastsInDim S100000 (![] : Fin 0 → Fin S100000.rank))
    (h' : S100000x40.ReducesTo [1] S100000) (hu : 0 < S_.numel) : FVec Ideal S100000x40 .f32 :=
  subf (subf z (broadcastInDim S100000x40 ![0, 1] hb2 (broadcastInDim S100000x1 ![0] hb1 (maximumf (broadcastInDim S100000 ![] hb0 (constant (F := Ideal) S_ .f32 0xFF800000#32)) (Host.reduce (FloatOps.maximumf (F := Ideal) (φ := .f32)) z (constant (F := Ideal) S_ .f32 0xFF800000#32) h' hu))))) (broadcastInDim S100000x40 ![0, 1] hb2 (Host.log (broadcastInDim S100000x1 ![0] hb1 (Host.reduceAdd (Host.exp (subf z (broadcastInDim S100000x40 ![0, 1] hb2 (broadcastInDim S100000x1 ![0] hb1 (maximumf (broadcastInDim S100000 ![] hb0 (constant (F := Ideal) S_ .f32 0xFF800000#32)) (Host.reduce (FloatOps.maximumf (F := Ideal) (φ := .f32)) z (constant (F := Ideal) S_ .f32 0xFF800000#32) h' hu)))))) (constant (F := Ideal) S_ .f32 0x00000000#32) h' hu))))

theorem lsmRef_apply (z : FVec Ideal S100000x40 .f32) (hb2 : S100000x1.BroadcastsInDim S100000x40 (![0, 1] : Fin 2 → Fin S100000x40.rank))
    (hb1 : S100000.BroadcastsInDim S100000x1 (![0] : Fin 1 → Fin S100000x1.rank))
    (hb0 : S_.BroadcastsInDim S100000 (![] : Fin 0 → Fin S100000.rank))
    (h' : S100000x40.ReducesTo [1] S100000) (hu : 0 < S_.numel) (p : Fin 100000) (q : Fin 40) :
    lsmRef z hb2 hb1 hb0 h' hu (ix2 p q)
      = (z (ix2 p q) - rowMaxOf z p) - Ideal.log (∑ q' : Fin 40, Ideal.exp (z (ix2 p q') - rowMaxOf z p)) := by
  have hm : ∀ q' : Fin 40, (broadcastInDim S100000x40 ![0, 1] hb2 (broadcastInDim S100000x1 ![0] hb1 (maximumf (broadcastInDim S100000 ![] hb0 (constant (F := Ideal) S_ .f32 0xFF800000#32)) (Host.reduce (FloatOps.maximumf (F := Ideal) (φ := .f32)) z (constant (F := Ideal) S_ .f32 0xFF800000#32) h' hu)))) (ix2 p q') = rowMaxOf z p := fun q' => bmax_apply z hb2 hb1 hb0 h' hu p q'
  have hd : ∀ q' : Fin 40, subf z (broadcastInDim S100000x40 ![0, 1] hb2 (broadcastInDim S100000x1 ![0] hb1 (maximumf (broadcastInDim S100000 ![] hb0 (constant (F := Ideal) S_ .f32 0xFF800000#32)) (Host.reduce (FloatOps.maximumf (F := Ideal) (φ := .f32)) z (constant (F := Ideal) S_ .f32 0xFF800000#32) h' hu)))) (ix2 p q') = z (ix2 p q') - rowMaxOf z p := fun q' =>
    (subf_apply _ _ (ix2 p q')).trans (congrArg (fun m : EReal => z (ix2 p q') - m) (hm q'))
  have hs : (broadcastInDim S100000x40 ![0, 1] hb2 (Host.log (broadcastInDim S100000x1 ![0] hb1 (Host.reduceAdd (Host.exp (subf z (broadcastInDim S100000x40 ![0, 1] hb2 (broadcastInDim S100000x1 ![0] hb1 (maximumf (broadcastInDim S100000 ![] hb0 (constant (F := Ideal) S_ .f32 0xFF800000#32)) (Host.reduce (FloatOps.maximumf (F := Ideal) (φ := .f32)) z (constant (F := Ideal) S_ .f32 0xFF800000#32) h' hu)))))) (constant (F := Ideal) S_ .f32 0x00000000#32) h' hu)))) (ix2 p q) = Ideal.log (∑ q' : Fin 40, Ideal.exp (z (ix2 p q') - rowMaxOf z p)) := by
    refine (bcast_a1_ab_apply _ hb2 p q).trans ?_
    refine (hostLog_apply _ (ix2 p (0 : Fin 1))).trans ?_
    refine congrArg Ideal.log ?_
    refine (bcast_a_a1_apply _ hb1 p 0).trans ?_
    refine (rowsum_apply _ h' hu p).trans ?_
    refine Finset.sum_congr rfl fun q' _ => ?_
    refine (hostExp_apply _ (ix2 p q')).trans ?_
    exact congrArg Ideal.exp (hd q')
  unfold lsmRef
  refine (subf_apply _ _ (ix2 p q)).trans ?_
  exact congrArg₂ (fun a b : EReal => a - b) (hd q) hs

/-- The program's log-softmax is that stage. -/
theorem logSoftmax_eq (z : FVec Ideal S100000x40 .f32) :
    logSoftmax (F := Ideal) z = lsmRef z Facts₀.bcast_S100000x1_S100000x40_0_1 Facts₀.bcast_S100000_S100000x1_0 Facts₀.bcast_S_S100000
      Facts₀.reducesTo_S100000x40_S100000_d1 Facts₀.h_S_ := rfl

/-! ## The pre-activation -/

/-- The product record of the two matrix products is a plain [100000, 128] · [128, 40]. -/
theorem dot_plain : Cert.PlainDot.Plain (a := 100000) (k := 128) (b := 40) dot_S100000x128_S128x40_S100000x40_1_0_0_1_n_n :=
  ⟨rfl, rfl, rfl, rfl, rfl, rfl⟩

/-- The pre-activation as the program computes it: the first product, then the bias, then the second product. -/
def preRef (a h : FVec Ideal S100000x128 .f32) (dv : FVec Ideal S100000x1 .f32) (wl wr : FVec Ideal S128x40 .f32) (b : FVec Ideal S40 .f32) (hbd : S100000x1.BroadcastsInDim S100000x128 (![0, 1] : Fin 2 → Fin S100000x128.rank))
    (hbr : S1x40.BroadcastsInDim S100000x40 (![0, 1] : Fin 2 → Fin S100000x40.rank))
    (hbb : S40.BroadcastsInDim S1x40 (![1] : Fin 1 → Fin S1x40.rank)) : FVec Ideal S100000x40 .f32 :=
  addf (addf (Host.dotGeneral dot_S100000x128_S128x40_S100000x40_1_0_0_1_n_n none (mulf a (broadcastInDim S100000x128 ![0, 1] hbd dv)) wl) (broadcastInDim S100000x40 ![0, 1] hbr (broadcastInDim S1x40 ![1] hbb b))) (Host.dotGeneral dot_S100000x128_S128x40_S100000x40_1_0_0_1_n_n none h wr)

/-- At an entry it is the specification's pre-activation: the bias moves past the second product, addition of
    extended reals being commutative and associative. -/
theorem preRef_apply (a h : FVec Ideal S100000x128 .f32) (dv : FVec Ideal S100000x1 .f32) (wl wr : FVec Ideal S128x40 .f32) (b : FVec Ideal S40 .f32) (hbd : S100000x1.BroadcastsInDim S100000x128 (![0, 1] : Fin 2 → Fin S100000x128.rank))
    (hbr : S1x40.BroadcastsInDim S100000x40 (![0, 1] : Fin 2 → Fin S100000x40.rank))
    (hbb : S40.BroadcastsInDim S1x40 (![1] : Fin 1 → Fin S1x40.rank)) (p : Fin 100000) (q : Fin 40) :
    preRef a h dv wl wr b hbd hbr hbb (ix2 p q) = Cert.Sage.pre (R := 100000) (M := 40) a h dv wl wr b p q := by
  have e1 : (Host.dotGeneral dot_S100000x128_S128x40_S100000x40_1_0_0_1_n_n none (mulf a (broadcastInDim S100000x128 ![0, 1] hbd dv)) wl) (ix2 p q) = ∑ κ : Fin 128, (a (ix2 p κ) * dv (ix2 p 0)) * wl (ix2 κ q) := by
    refine (Cert.PlainDot.dotGeneral_apply dot_plain rfl rfl none _ wl p q).trans ?_
    refine Finset.sum_congr rfl fun κ _ => ?_
    refine congrArg (fun m : EReal => m * wl (ix2 κ q)) ?_
    refine (mulf_apply _ _ (ix2 p κ)).trans ?_
    exact congrArg (fun m : EReal => a (ix2 p κ) * m) (bcast_a1_ab_apply dv hbd p κ)
  have e2 : (Host.dotGeneral dot_S100000x128_S128x40_S100000x40_1_0_0_1_n_n none h wr) (ix2 p q) = ∑ κ : Fin 128, h (ix2 p κ) * wr (ix2 κ q) :=
    Cert.PlainDot.dotGeneral_apply dot_plain rfl rfl none h wr p q
  have e3 : (broadcastInDim S100000x40 ![0, 1] hbr (broadcastInDim S1x40 ![1] hbb b)) (ix2 p q) = b (ix1 q) :=
    (bcast_1b_ab_apply _ hbr p q).trans (bcast_b_1b_apply b hbb 0 q)
  unfold preRef Cert.Sage.pre
  refine (addf_apply _ _ (ix2 p q)).trans ?_
  refine (congrArg₂ (fun x y : EReal => x + y) ((addf_apply _ _ (ix2 p q)).trans (congrArg₂ (fun x y : EReal => x + y) e1 e3)) e2).trans ?_
  exact Cert.Sage.add_bias_comm _ _ _

/-- The program's pre-activation of the last layer is that array. -/
theorem dense40_eq (a h : FVec Ideal S100000x128 .f32) (dv : FVec Ideal S100000x1 .f32) (wl wr : FVec Ideal S128x40 .f32) (b : FVec Ideal S40 .f32) :
    dense40 (F := Ideal) a h dv wl wr b
      = preRef a h dv wl wr b Facts₀.bcast_S100000x1_S100000x128_0_1 Facts₀.bcast_S1x40_S100000x40_0_1 Facts₀.bcast_S40_S1x40_1 := rfl

/-! ## The last layer -/

theorem denseLsm_eq (a h : (⟨S100000x128, .f32⟩ : BufTy).Contents (Elt Ideal)) (dv : (⟨S100000x1, .f32⟩ : BufTy).Contents (Elt Ideal))
    (wl wr : (⟨S128x40, .f32⟩ : BufTy).Contents (Elt Ideal)) (b : (⟨S40, .f32⟩ : BufTy).Contents (Elt Ideal)) :
    denseLsm (F := Ideal) a h dv wl wr b = Cert.Sage.lsmLayer a h dv wl wr b := by
  funext j
  obtain ⟨p, q, rfl⟩ : ∃ (p : Fin 100000) (q : Fin 40), j = ix2 p q := ⟨j 0, j 1, eq_ix2 j⟩
  unfold denseLsm
  rw [dense40_eq, logSoftmax_eq]
  refine (lsmRef_apply (preRef a h dv wl wr b Facts₀.bcast_S100000x1_S100000x128_0_1 Facts₀.bcast_S1x40_S100000x40_0_1 Facts₀.bcast_S40_S1x40_1) _ _ _ _ _ p q).trans ?_
  have hz : ∀ q' : Fin 40, (preRef a h dv wl wr b Facts₀.bcast_S100000x1_S100000x128_0_1 Facts₀.bcast_S1x40_S100000x40_0_1 Facts₀.bcast_S40_S1x40_1) (ix2 p q') = Cert.Sage.pre (R := 100000) (M := 40) a h dv wl wr b p q' :=
    fun q' => preRef_apply a h dv wl wr b _ _ _ p q'
  have hmx : rowMaxOf (preRef a h dv wl wr b Facts₀.bcast_S100000x1_S100000x128_0_1 Facts₀.bcast_S1x40_S100000x40_0_1 Facts₀.bcast_S40_S1x40_1) p = Cert.Sage.rowMax (R := 100000) (M := 40) a h dv wl wr b p := by
    unfold rowMaxOf Cert.Sage.rowMax
    exact congrArg (fun f : Fin 40 → EReal => (Finset.univ : Finset (Fin 40)).fold max ⊥ f) (funext hz)
  show _ = (Cert.Sage.pre (R := 100000) (M := 40) a h dv wl wr b p q - Cert.Sage.rowMax (R := 100000) (M := 40) a h dv wl wr b p)
    - Ideal.log (∑ q' : Fin 40, Ideal.exp (Cert.Sage.pre (R := 100000) (M := 40) a h dv wl wr b p q' - Cert.Sage.rowMax (R := 100000) (M := 40) a h dv wl wr b p))
  rw [hmx]
  simp only [hz]

end Cert.ReferenceIdeal.RefLsm

end
-- ==== Proof.Bridge.lean ====
/-
  The two programs apply the same host operations to the edge list and to a feature array: the ids, the neighbour sum
  and the inverse-degree vector are the same functions.  The kernel's program makes the inverse degree a column by a
  reshape, the reference by a broadcast along the new axis: both read the vector at the row's index.
-/
import proofs.«141394_j36197984370866_1_alg».proof.Proof.KernelValue
import proofs.«141394_j36197984370866_1_alg».proof.Proof.RefFold
import proofs.«141394_j36197984370866_1_alg».proof.Proof.RefRelu
import proofs.«141394_j36197984370866_1_alg».proof.Proof.RefLsm
import Idealize.ShloMosaic.Lib.Pipeline.Value
import Idealize.ShloMosaic.Lib.ValueIdx

noncomputable section

open Idealize.ShloMosaic Idealize.ShloMosaic.ValueIdx

namespace Cert.Bridge

variable {F : FTy → Type} [FloatOps F]

theorem src_eq (e : (⟨Cert.ReferenceIdeal.S2x1600000, .i32⟩ : BufTy).Contents (Elt F)) :
    Cert.ReferenceIdeal.HostFn.srcIds e = Cert.KernelIdeal.Glue.srcIds e := rfl

theorem dst_eq (e : (⟨Cert.ReferenceIdeal.S2x1600000, .i32⟩ : BufTy).Contents (Elt F)) :
    Cert.ReferenceIdeal.HostFn.dstIds e = Cert.KernelIdeal.Glue.dstIds e := rfl

theorem agg_eq (s d : (⟨Cert.ReferenceIdeal.S1600000, .i32⟩ : BufTy).Contents (Elt F))
    (h : (⟨Cert.ReferenceIdeal.S100000x128, .f32⟩ : BufTy).Contents (Elt F)) :
    Cert.ReferenceIdeal.HostFn.aggOf s d h = Cert.KernelIdeal.Glue.aggOf s d h := rfl

theorem degVec_eq (d : (⟨Cert.ReferenceIdeal.S1600000, .i32⟩ : BufTy).Contents (Elt F)) :
    Cert.ReferenceIdeal.HostFn.invDegVec d = Cert.KernelIdeal.Glue.invDegVec d := rfl

/-- A vector over the nodes made a column: by a broadcast along the new axis, or by a reshape. Either way the entry of
    row `p` is the vector's entry `p`. -/
theorem column_eq {α : Type} (v : (⟨1, ![100000]⟩ : Shape).Idx → α)
    (hb : (⟨1, ![100000]⟩ : Shape).BroadcastsInDim ⟨2, ![100000, 1]⟩ ![0]) (hs : (⟨1, ![100000]⟩ : Shape).ShapeCasts ⟨2, ![100000, 1]⟩) :
    broadcastInDim ⟨2, ![100000, 1]⟩ ![0] hb v = shapeCast ⟨2, ![100000, 1]⟩ v hs := by
  funext j
  have e1 := broadcastInDim_apply ![0] hb v j (ix1 (j 0))
    (fun a => match a with
      | ⟨0, _⟩ => by show (j 0).val = if (100000 : Nat) = 1 then 0 else (j 0).val; rw [if_neg (by decide)])
  have e2 := shapeCast_apply v hs j (ix1 (j 0))
    (by rewrite [Shape.rowMajor_val_one, Shape.rowMajor_val_two]; have h1 : (j 1).val < 1 := (j 1).isLt; show (j 0).val = (j 0).val * 1 + (j 1).val; omega)
  rw [e1, e2]

theorem deg_eq (e : (⟨Cert.ReferenceIdeal.S2x1600000, .i32⟩ : BufTy).Contents (Elt F)) :
    Cert.ReferenceIdeal.HostFn.invDeg e = Cert.KernelIdeal.Glue.invDeg e := by
  unfold Cert.ReferenceIdeal.HostFn.invDeg Cert.KernelIdeal.Glue.invDeg
  rw [dst_eq, degVec_eq]
  exact column_eq _ _ _

/-! ## The reference's result is the kernel program's

Layer by layer: the reference's dense part is the specification's layer (the bias added before the second product or
after it: one sum), on the same neighbour sum, features, inverse degree, weights and bias. -/

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

theorem layer1_eq (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Fold.r1 (F := Ideal) m' c = Cert.KernelIdeal.Result.h1 m c := by
  unfold Cert.ReferenceIdeal.Fold.r1 Cert.KernelIdeal.Result.h1
  rw [Cert.ReferenceIdeal.RefRelu.denseRelu_eq, e0, e1, e2, e3, e4, src_eq, dst_eq, agg_eq, deg_eq]

theorem layer2_eq (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Fold.r2 (F := Ideal) m' c = Cert.KernelIdeal.Result.h2 m c := by
  unfold Cert.ReferenceIdeal.Fold.r2 Cert.KernelIdeal.Result.h2
  rw [layer1_eq m m' c e0 e1 e2 e3 e4, Cert.ReferenceIdeal.RefRelu.denseRelu_eq, e1, e5, e6, e7, src_eq, dst_eq, agg_eq, deg_eq]

theorem result_eq (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Fold.res (F := Ideal) m' c = Cert.KernelIdeal.Result.out m c := by
  unfold Cert.ReferenceIdeal.Fold.res Cert.KernelIdeal.Result.out
  rw [layer2_eq m m' c e0 e1 e2 e3 e4 e5 e6 e7, Cert.ReferenceIdeal.RefLsm.denseLsm_eq, e1, e8, e9, e10, src_eq, dst_eq, agg_eq, deg_eq]

end Cert.Bridge

end
-- ==== Proof.lean ====
/-
  A three-layer GraphSAGE network on 100000 nodes and 1600000 edges: the Pallas program against its jnp reference,
  over the extended reals.

  Both programs compute, from the edge list, the inverse degree δ = 1 / max (in-degree, 1), and per layer the neighbour
  sum agg h (gather the source rows of h, add them into the destination rows) by the same host operations.  The
  dense part of a layer,  (agg h · δ) W_l + h W_r + b  followed by max (·, 0) in the hidden layers and by the
  row-wise log-softmax in the last, is a kernel over blocks of 5000 rows in the one program and host operations on
  the whole arrays in the other.  At the ideal values a matrix product is the exact sum over the contracted index
  whether taken block by block or whole, a change of float format is the identity, and the two programs differ
  only in WHEN the bias is added — before the second product or after it —, which commutativity and associativity
  of the sum of extended reals absorb; no finiteness of the inputs is used.

  `Cert.KernelIdeal.Result.run` reads the kernel program's run (each kernel's output array is the specification's
  layer of the arrays it is launched on; the host operations between compute the next neighbour sum),
  `Cert.ReferenceIdeal.Fold.result_eq` the reference's (five stretches of its operations), and
  `Cert.Bridge.result_eq` joins them.  The frames of the two kernel programs are the generated ones; the
  reference's frame is its run with the result dropped.  The ideal pass rewrote nothing, so `preserves` is trivial.
-/
import proofs.«141394_j36197984370866_1_alg».proof.Defs
import proofs.«141394_j36197984370866_1_alg».proof.Proof.Gen.Kernel
import proofs.«141394_j36197984370866_1_alg».proof.Proof.Gen.Kernel.Frame
import proofs.«141394_j36197984370866_1_alg».proof.Proof.Gen.KernelIdeal
import proofs.«141394_j36197984370866_1_alg».proof.Proof.Gen.KernelIdeal.Frame
import proofs.«141394_j36197984370866_1_alg».proof.Proof.Gen.ReferenceIdeal
import proofs.«141394_j36197984370866_1_alg».proof.Proof.Gen.Pre_finite_inputs
import proofs.«141394_j36197984370866_1_alg».proof.Proof.RefRun
import proofs.«141394_j36197984370866_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories agreeing on the arguments both programs end with the result array at the three-layer network's
    output of the arguments. -/
theorem algebraic : Cert.algebraic_KernelIdeal_ReferenceIdeal := by
  intro m ρ m' ρ' _ hagree
  refine ⟨fun c => Cert.KernelIdeal.Result.out m c, Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8, e9, e10⟩ := hagree c
  exact (Cert.ReferenceIdeal.Fold.result_eq m' c).trans (Cert.Bridge.result_eq m m' c e0 e1 e2 e3 e4 e5 e6 e7 e8 e9 e10)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
